-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x48x48 : Shape := ⟨4, ![16, 128, 48, 48]⟩
abbrev S16x64x96x96 : Shape := ⟨4, ![16, 64, 96, 96]⟩
abbrev S16x32x192x192 : Shape := ⟨4, ![16, 32, 192, 192]⟩
abbrev S16x16x384x384 : Shape := ⟨4, ![16, 16, 384, 384]⟩
abbrev S16x256x24x24 : Shape := ⟨4, ![16, 256, 24, 24]⟩
abbrev S_ : Shape := ⟨0, ![]⟩

class Facts : Prop where
  bcast_S_S16x128x48x48 : S_.BroadcastsInDim S16x128x48x48 (![] : Fin 0 → Fin S16x128x48x48.rank)
  reducesTo_S16x128x48x48_S_d0_1_2_3 : S16x128x48x48.ReducesTo [0, 1, 2, 3] S_
  h_S_ : 0 < S_.numel
  bcast_S_S16x64x96x96 : S_.BroadcastsInDim S16x64x96x96 (![] : Fin 0 → Fin S16x64x96x96.rank)
  reducesTo_S16x64x96x96_S_d0_1_2_3 : S16x64x96x96.ReducesTo [0, 1, 2, 3] S_
  bcast_S_S16x32x192x192 : S_.BroadcastsInDim S16x32x192x192 (![] : Fin 0 → Fin S16x32x192x192.rank)
  reducesTo_S16x32x192x192_S_d0_1_2_3 : S16x32x192x192.ReducesTo [0, 1, 2, 3] S_
  bcast_S_S16x16x384x384 : S_.BroadcastsInDim S16x16x384x384 (![] : Fin 0 → Fin S16x16x384x384.rank)
  reducesTo_S16x16x384x384_S_d0_1_2_3 : S16x16x384x384.ReducesTo [0, 1, 2, 3] S_
  bcast_S_S16x256x24x24 : S_.BroadcastsInDim S16x256x24x24 (![] : Fin 0 → Fin S16x256x24x24.rank)
  reducesTo_S16x256x24x24_S_d0_1_2_3 : S16x256x24x24.ReducesTo [0, 1, 2, 3] S_

variable [Facts]

def fn_part1 {F : FTy → Type} [FloatOps F] (main_arg4 : FVec F S16x256x24x24 .f32) (main_v13 : IVec S_ 1) (main_v16 : IVec S16x16x384x384 1) : IVec S_ 1 :=
  let main_c_5 : IVec S_ 1 := constantI S_ 1 1#1
  let main_v17 : IVec S_ 1 := (fun x v => Host.reduce IntOp.andi x v reducesTo_S16x16x384x384_S_d0_1_2_3 h_S_) main_v16 main_c_5
  let main_v18 : IVec S_ 1 := andi main_v13 main_v17
  let main_v19 : FVec F S16x256x24x24 .f32 := Host.absf main_arg4
  let main_cst_6 : FVec F S_ .f32 := constant S_ .f32 0x7F800000#32
  let main_v20 : FVec F S16x256x24x24 .f32 := broadcastInDim S16x256x24x24 ![] bcast_S_S16x256x24x24 main_cst_6
  let main_v21 : IVec S16x256x24x24 1 := cmpf .olt main_v19 main_v20
  let main_c_7 : IVec S_ 1 := constantI S_ 1 1#1
  let main_v22 : IVec S_ 1 := (fun x v => Host.reduce IntOp.andi x v reducesTo_S16x256x24x24_S_d0_1_2_3 h_S_) main_v21 main_c_7
  let main_v23 : IVec S_ 1 := andi main_v18 main_v22
  main_v23

def fn {F : FTy → Type} [FloatOps F] (main_arg0 : FVec F S16x128x48x48 .f32) (main_arg1 : FVec F S16x64x96x96 .f32) (main_arg2 : FVec F S16x32x192x192 .f32) (main_arg3 : FVec F S16x16x384x384 .f32) (main_arg4 : FVec F S16x256x24x24 .f32) : IVec S_ 1 :=
  let main_v0 : FVec F S16x128x48x48 .f32 := Host.absf main_arg0
  let main_cst : FVec F S_ .f32 := constant S_ .f32 0x7F800000#32
  let main_v1 : FVec F S16x128x48x48 .f32 := broadcastInDim S16x128x48x48 ![] bcast_S_S16x128x48x48 main_cst
  let main_v2 : IVec S16x128x48x48 1 := cmpf .olt main_v0 main_v1
  let main_c : IVec S_ 1 := constantI S_ 1 1#1
  let main_v3 : IVec S_ 1 := (fun x v => Host.reduce IntOp.andi x v reducesTo_S16x128x48x48_S_d0_1_2_3 h_S_) main_v2 main_c
  let main_v4 : FVec F S16x64x96x96 .f32 := Host.absf main_arg1
  let main_cst_0 : FVec F S_ .f32 := constant S_ .f32 0x7F800000#32
  let main_v5 : FVec F S16x64x96x96 .f32 := broadcastInDim S16x64x96x96 ![] bcast_S_S16x64x96x96 main_cst_0
  let main_v6 : IVec S16x64x96x96 1 := cmpf .olt main_v4 main_v5
  let main_c_1 : IVec S_ 1 := constantI S_ 1 1#1
  let main_v7 : IVec S_ 1 := (fun x v => Host.reduce IntOp.andi x v reducesTo_S16x64x96x96_S_d0_1_2_3 h_S_) main_v6 main_c_1
  let main_v8 : IVec S_ 1 := andi main_v3 main_v7
  let main_v9 : FVec F S16x32x192x192 .f32 := Host.absf main_arg2
  let main_cst_2 : FVec F S_ .f32 := constant S_ .f32 0x7F800000#32
  let main_v10 : FVec F S16x32x192x192 .f32 := broadcastInDim S16x32x192x192 ![] bcast_S_S16x32x192x192 main_cst_2
  let main_v11 : IVec S16x32x192x192 1 := cmpf .olt main_v9 main_v10
  let main_c_3 : IVec S_ 1 := constantI S_ 1 1#1
  let main_v12 : IVec S_ 1 := (fun x v => Host.reduce IntOp.andi x v reducesTo_S16x32x192x192_S_d0_1_2_3 h_S_) main_v11 main_c_3
  let main_v13 : IVec S_ 1 := andi main_v8 main_v12
  let main_v14 : FVec F S16x16x384x384 .f32 := Host.absf main_arg3
  let main_cst_4 : FVec F S_ .f32 := constant S_ .f32 0x7F800000#32
  let main_v15 : FVec F S16x16x384x384 .f32 := broadcastInDim S16x16x384x384 ![] bcast_S_S16x16x384x384 main_cst_4
  let main_v16 : IVec S16x16x384x384 1 := cmpf .olt main_v14 main_v15
  fn_part1 (F := F) main_arg4 main_v13 main_v16
-- ==== Kernel.lean ====
abbrev S16x128x48x48 : Shape := ⟨4, ![16, 128, 48, 48]⟩
abbrev S16x64x96x96 : Shape := ⟨4, ![16, 64, 96, 96]⟩
abbrev S16x32x192x192 : Shape := ⟨4, ![16, 32, 192, 192]⟩
abbrev S16x16x384x384 : Shape := ⟨4, ![16, 16, 384, 384]⟩
abbrev S16x256x24x24 : Shape := ⟨4, ![16, 256, 24, 24]⟩
abbrev S16x128x24x24 : Shape := ⟨4, ![16, 128, 24, 24]⟩
abbrev S1x128x48x48 : Shape := ⟨4, ![1, 128, 48, 48]⟩
abbrev S1x128x24x24 : Shape := ⟨4, ![1, 128, 24, 24]⟩
abbrev S128x48x48 : Shape := ⟨3, ![128, 48, 48]⟩
abbrev S128x24x2x48 : Shape := ⟨4, ![128, 24, 2, 48]⟩
abbrev S2x128x24x48 : Shape := ⟨4, ![2, 128, 24, 48]⟩
abbrev S128x24x48 : Shape := ⟨3, ![128, 24, 48]⟩
abbrev S128x24x24x2 : Shape := ⟨4, ![128, 24, 24, 2]⟩
abbrev S2x128x24x24 : Shape := ⟨4, ![2, 128, 24, 24]⟩
abbrev S128x24x24 : Shape := ⟨3, ![128, 24, 24]⟩
abbrev S16x64x24x24 : Shape := ⟨4, ![16, 64, 24, 24]⟩
abbrev S1x64x96x96 : Shape := ⟨4, ![1, 64, 96, 96]⟩
abbrev S1x64x24x24 : Shape := ⟨4, ![1, 64, 24, 24]⟩
abbrev S64x96x96 : Shape := ⟨3, ![64, 96, 96]⟩
abbrev S64x24x4x96 : Shape := ⟨4, ![64, 24, 4, 96]⟩
abbrev S4x64x24x96 : Shape := ⟨4, ![4, 64, 24, 96]⟩
abbrev S64x24x96 : Shape := ⟨3, ![64, 24, 96]⟩
abbrev S64x24x24x4 : Shape := ⟨4, ![64, 24, 24, 4]⟩
abbrev S4x64x24x24 : Shape := ⟨4, ![4, 64, 24, 24]⟩
abbrev S64x24x24 : Shape := ⟨3, ![64, 24, 24]⟩
abbrev S16x32x24x24 : Shape := ⟨4, ![16, 32, 24, 24]⟩
abbrev S1x32x192x192 : Shape := ⟨4, ![1, 32, 192, 192]⟩
abbrev S1x32x24x24 : Shape := ⟨4, ![1, 32, 24, 24]⟩
abbrev S32x192x192 : Shape := ⟨3, ![32, 192, 192]⟩
abbrev S32x24x8x192 : Shape := ⟨4, ![32, 24, 8, 192]⟩
abbrev S8x32x24x192 : Shape := ⟨4, ![8, 32, 24, 192]⟩
abbrev S32x24x192 : Shape := ⟨3, ![32, 24, 192]⟩
abbrev S32x24x24x8 : Shape := ⟨4, ![32, 24, 24, 8]⟩
abbrev S8x32x24x24 : Shape := ⟨4, ![8, 32, 24, 24]⟩
abbrev S32x24x24 : Shape := ⟨3, ![32, 24, 24]⟩
abbrev S16x16x24x24 : Shape := ⟨4, ![16, 16, 24, 24]⟩
abbrev S1x16x384x384 : Shape := ⟨4, ![1, 16, 384, 384]⟩
abbrev S1x16x24x24 : Shape := ⟨4, ![1, 16, 24, 24]⟩
abbrev S16x384x384 : Shape := ⟨3, ![16, 384, 384]⟩
abbrev S16x24x16x384 : Shape := ⟨4, ![16, 24, 16, 384]⟩
abbrev S16x16x24x384 : Shape := ⟨4, ![16, 16, 24, 384]⟩
abbrev S16x24x384 : Shape := ⟨3, ![16, 24, 384]⟩
abbrev S16x24x24x16 : Shape := ⟨4, ![16, 24, 24, 16]⟩
abbrev S16x24x24 : Shape := ⟨3, ![16, 24, 24]⟩
abbrev S1x256x24x24 : Shape := ⟨4, ![1, 256, 24, 24]⟩
abbrev S256x24x24 : Shape := ⟨3, ![256, 24, 24]⟩

abbrev nBuf : Space → Nat
  | .hbm => 10
  | .vmem => 28
  | .smem => 0
  | _ => 0

abbrev bufTy : (tb : Table) → Fin (tcTables nBuf tb) → BufTy
  | .hbm, ⟨0, _⟩ => ⟨S16x128x48x48, .f32⟩
  | .hbm, ⟨1, _⟩ => ⟨S16x64x96x96, .f32⟩
  | .hbm, ⟨2, _⟩ => ⟨S16x32x192x192, .f32⟩
  | .hbm, ⟨3, _⟩ => ⟨S16x16x384x384, .f32⟩
  | .hbm, ⟨4, _⟩ => ⟨S16x256x24x24, .f32⟩
  | .hbm, ⟨5, _⟩ => ⟨S16x128x24x24, .f32⟩
  | .hbm, ⟨6, _⟩ => ⟨S16x64x24x24, .f32⟩
  | .hbm, ⟨7, _⟩ => ⟨S16x32x24x24, .f32⟩
  | .hbm, ⟨8, _⟩ => ⟨S16x16x24x24, .f32⟩
  | .hbm, ⟨9, _⟩ => ⟨S16x256x24x24, .f32⟩
  | .local _ .vmem, ⟨0, _⟩ => ⟨S1x128x48x48, .f32⟩
  | .local _ .vmem, ⟨1, _⟩ => ⟨S1x128x48x48, .f32⟩
  | .local _ .vmem, ⟨2, _⟩ => ⟨S1x128x24x24, .f32⟩
  | .local _ .vmem, ⟨3, _⟩ => ⟨S1x128x24x24, .f32⟩
  | .local _ .vmem, ⟨4, _⟩ => ⟨S1x64x96x96, .f32⟩
  | .local _ .vmem, ⟨5, _⟩ => ⟨S1x64x96x96, .f32⟩
  | .local _ .vmem, ⟨6, _⟩ => ⟨S1x64x24x24, .f32⟩
  | .local _ .vmem, ⟨7, _⟩ => ⟨S1x64x24x24, .f32⟩
  | .local _ .vmem, ⟨8, _⟩ => ⟨S1x32x192x192, .f32⟩
  | .local _ .vmem, ⟨9, _⟩ => ⟨S1x32x192x192, .f32⟩
  | .local _ .vmem, ⟨10, _⟩ => ⟨S1x32x24x24, .f32⟩
  | .local _ .vmem, ⟨11, _⟩ => ⟨S1x32x24x24, .f32⟩
  | .local _ .vmem, ⟨12, _⟩ => ⟨S1x16x384x384, .f32⟩
  | .local _ .vmem, ⟨13, _⟩ => ⟨S1x16x384x384, .f32⟩
  | .local _ .vmem, ⟨14, _⟩ => ⟨S1x16x24x24, .f32⟩
  | .local _ .vmem, ⟨15, _⟩ => ⟨S1x16x24x24, .f32⟩
  | .local _ .vmem, ⟨16, _⟩ => ⟨S1x128x24x24, .f32⟩
  | .local _ .vmem, ⟨17, _⟩ => ⟨S1x128x24x24, .f32⟩
  | .local _ .vmem, ⟨18, _⟩ => ⟨S1x64x24x24, .f32⟩
  | .local _ .vmem, ⟨19, _⟩ => ⟨S1x64x24x24, .f32⟩
  | .local _ .vmem, ⟨20, _⟩ => ⟨S1x32x24x24, .f32⟩
  | .local _ .vmem, ⟨21, _⟩ => ⟨S1x32x24x24, .f32⟩
  | .local _ .vmem, ⟨22, _⟩ => ⟨S1x16x24x24, .f32⟩
  | .local _ .vmem, ⟨23, _⟩ => ⟨S1x16x24x24, .f32⟩
  | .local _ .vmem, ⟨24, _⟩ => ⟨S1x256x24x24, .f32⟩
  | .local _ .vmem, ⟨25, _⟩ => ⟨S1x256x24x24, .f32⟩
  | .local _ .vmem, ⟨26, _⟩ => ⟨S1x256x24x24, .f32⟩
  | .local _ .vmem, ⟨27, _⟩ => ⟨S1x256x24x24, .f32⟩
  | _, _ => ⟨S16x128x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc4_stg4_0 : Ref sig .tc := ⟨.vmem, 24, rfl⟩
abbrev cc4_stg4_1 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc4_sem4_0 : DmaSem sig := 24
abbrev cc4_sem4_1 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x48x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x24x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x96x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x24x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x32x192x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x32x24x24 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x16x384x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x16x24x24 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![16], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_4 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_5 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x128x24x24 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x64x24x24 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x32x24x24 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x16x24x24 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x256x24x24 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x256x24x24 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S1x128x48x48_S1x128x48x48_0_0_0_0 : ∀ a, (![0, 0, 0, 0] : Fin 4 → Nat) a + S1x128x48x48.size a ≤ S1x128x48x48.size a
  h_S1x128x48x48 : 0 < S1x128x48x48.numel
  shapeCasts_S1x128x48x48_S128x48x48 : S1x128x48x48.ShapeCasts S128x48x48
  shapeCasts_S128x48x48_S128x24x2x48 : S128x48x48.ShapeCasts S128x24x2x48
  transposes_S128x24x2x48_p2_0_1_3_S2x128x24x48 : S128x24x2x48.Transposes [2, 0, 1, 3] S2x128x24x48
  reduces_S2x128x24x48_S128x24x48 : S2x128x24x48.Reduces [0] S128x24x48
  shapeCasts_S128x24x48_S128x24x24x2 : S128x24x48.ShapeCasts S128x24x24x2
  transposes_S128x24x24x2_p3_0_1_2_S2x128x24x24 : S128x24x24x2.Transposes [3, 0, 1, 2] S2x128x24x24
  reduces_S2x128x24x24_S128x24x24 : S2x128x24x24.Reduces [0] S128x24x24
  inb_S1x128x24x24_S1x128x24x24_0_0_0_0 : ∀ a, (![0, 0, 0, 0] : Fin 4 → Nat) a + S1x128x24x24.size a ≤ S1x128x24x24.size a
  h_S1x128x24x24 : 0 < S1x128x24x24.numel
  shapeCasts_S1x128x24x24_S128x24x24 : S1x128x24x24.ShapeCasts S128x24x24
  shapeCasts_S128x24x24_S1x128x24x24 : S128x24x24.ShapeCasts S1x128x24x24
  inb_S1x64x96x96_S1x64x96x96_0_0_0_0 : ∀ a, (![0, 0, 0, 0] : Fin 4 → Nat) a + S1x64x96x96.size a ≤ S1x64x96x96.size a
  h_S1x64x96x96 : 0 < S1x64x96x96.numel
  shapeCasts_S1x64x96x96_S64x96x96 : S1x64x96x96.ShapeCasts S64x96x96
  shapeCasts_S64x96x96_S64x24x4x96 : S64x96x96.ShapeCasts S64x24x4x96
  transposes_S64x24x4x96_p2_0_1_3_S4x64x24x96 : S64x24x4x96.Transposes [2, 0, 1, 3] S4x64x24x96
  reduces_S4x64x24x96_S64x24x96 : S4x64x24x96.Reduces [0] S64x24x96
  shapeCasts_S64x24x96_S64x24x24x4 : S64x24x96.ShapeCasts S64x24x24x4
  transposes_S64x24x24x4_p3_0_1_2_S4x64x24x24 : S64x24x24x4.Transposes [3, 0, 1, 2] S4x64x24x24
  reduces_S4x64x24x24_S64x24x24 : S4x64x24x24.Reduces [0] S64x24x24
  inb_S1x64x24x24_S1x64x24x24_0_0_0_0 : ∀ a, (![0, 0, 0, 0] : Fin 4 → Nat) a + S1x64x24x24.size a ≤ S1x64x24x24.size a
  h_S1x64x24x24 : 0 < S1x64x24x24.numel
  shapeCasts_S1x64x24x24_S64x24x24 : S1x64x24x24.ShapeCasts S64x24x24
  shapeCasts_S64x24x24_S1x64x24x24 : S64x24x24.ShapeCasts S1x64x24x24
  inb_S1x32x192x192_S1x32x192x192_0_0_0_0 : ∀ a, (![0, 0, 0, 0] : Fin 4 → Nat) a + S1x32x192x192.size a ≤ S1x32x192x192.size a
  h_S1x32x192x192 : 0 < S1x32x192x192.numel
  shapeCasts_S1x32x192x192_S32x192x192 : S1x32x192x192.ShapeCasts S32x192x192
  shapeCasts_S32x192x192_S32x24x8x192 : S32x192x192.ShapeCasts S32x24x8x192
  transposes_S32x24x8x192_p2_0_1_3_S8x32x24x192 : S32x24x8x192.Transposes [2, 0, 1, 3] S8x32x24x192
  reduces_S8x32x24x192_S32x24x192 : S8x32x24x192.Reduces [0] S32x24x192
  shapeCasts_S32x24x192_S32x24x24x8 : S32x24x192.ShapeCasts S32x24x24x8
  transposes_S32x24x24x8_p3_0_1_2_S8x32x24x24 : S32x24x24x8.Transposes [3, 0, 1, 2] S8x32x24x24
  reduces_S8x32x24x24_S32x24x24 : S8x32x24x24.Reduces [0] S32x24x24
  inb_S1x32x24x24_S1x32x24x24_0_0_0_0 : ∀ a, (![0, 0, 0, 0] : Fin 4 → Nat) a + S1x32x24x24.size a ≤ S1x32x24x24.size a
  h_S1x32x24x24 : 0 < S1x32x24x24.numel
  shapeCasts_S1x32x24x24_S32x24x24 : S1x32x24x24.ShapeCasts S32x24x24
  shapeCasts_S32x24x24_S1x32x24x24 : S32x24x24.ShapeCasts S1x32x24x24
  inb_S1x16x384x384_S1x16x384x384_0_0_0_0 : ∀ a, (![0, 0, 0, 0] : Fin 4 → Nat) a + S1x16x384x384.size a ≤ S1x16x384x384.size a
  h_S1x16x384x384 : 0 < S1x16x384x384.numel
  shapeCasts_S1x16x384x384_S16x384x384 : S1x16x384x384.ShapeCasts S16x384x384
  shapeCasts_S16x384x384_S16x24x16x384 : S16x384x384.ShapeCasts S16x24x16x384
  transposes_S16x24x16x384_p2_0_1_3_S16x16x24x384 : S16x24x16x384.Transposes [2, 0, 1, 3] S16x16x24x384
  reduces_S16x16x24x384_S16x24x384 : S16x16x24x384.Reduces [0] S16x24x384
  shapeCasts_S16x24x384_S16x24x24x16 : S16x24x384.ShapeCasts S16x24x24x16
  transposes_S16x24x24x16_p3_0_1_2_S16x16x24x24 : S16x24x24x16.Transposes [3, 0, 1, 2] S16x16x24x24
  reduces_S16x16x24x24_S16x24x24 : S16x16x24x24.Reduces [0] S16x24x24
  inb_S1x16x24x24_S1x16x24x24_0_0_0_0 : ∀ a, (![0, 0, 0, 0] : Fin 4 → Nat) a + S1x16x24x24.size a ≤ S1x16x24x24.size a
  h_S1x16x24x24 : 0 < S1x16x24x24.numel
  shapeCasts_S1x16x24x24_S16x24x24 : S1x16x24x24.ShapeCasts S16x24x24
  shapeCasts_S16x24x24_S1x16x24x24 : S16x24x24.ShapeCasts S1x16x24x24
  inb_S1x256x24x24_S1x256x24x24_0_0_0_0 : ∀ a, (![0, 0, 0, 0] : Fin 4 → Nat) a + S1x256x24x24.size a ≤ S1x256x24x24.size a
  h_S1x256x24x24 : 0 < S1x256x24x24.numel
  shapeCasts_S1x256x24x24_S256x24x24 : S1x256x24x24.ShapeCasts S256x24x24
  concatenates_S128x24x24_S128x24x24_S256x24x24_d0 : Shape.Concatenates [S128x24x24, S128x24x24] S256x24x24 0
  concatenates_S64x24x24_S64x24x24_S64x24x24_S64x24x24_S256x24x24_d0 : Shape.Concatenates [S64x24x24, S64x24x24, S64x24x24, S64x24x24] S256x24x24 0
  concatenates_S32x24x24_S32x24x24_S32x24x24_S32x24x24_S32x24x24_S32x24x24_S32x24x24_S32x24x24_S256x24x24_d0 : Shape.Concatenates [S32x24x24, S32x24x24, S32x24x24, S32x24x24, S32x24x24, S32x24x24, S32x24x24, S32x24x24] S256x24x24 0
  concatenates_S16x24x24_S16x24x24_S16x24x24_S16x24x24_S16x24x24_S16x24x24_S16x24x24_S16x24x24_S16x24x24_S16x24x24_S16x24x24_S16x24x24_S16x24x24_S16x24x24_S16x24x24_S16x24x24_S256x24x24_d0 : Shape.Concatenates [S16x24x24, S16x24x24, S16x24x24, S16x24x24, S16x24x24, S16x24x24, S16x24x24, S16x24x24, S16x24x24, S16x24x24, S16x24x24, S16x24x24, S16x24x24, S16x24x24, S16x24x24, S16x24x24] S256x24x24 0
  shapeCasts_S256x24x24_S1x256x24x24 : S256x24x24.ShapeCasts S1x256x24x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x48x48.size a ≤ S16x128x48x48.size a
  hwx0_0 : ∀ i : grid0.Coords, EltTy.bits .f32 = 32 ∨ (Rect.block (s := S16x128x48x48) S1x128x48x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x24x24.size a ≤ S16x128x24x24.size a
  hwx0_1 : ∀ i : grid0.Coords, EltTy.bits .f32 = 32 ∨ (Rect.block (s := S16x128x24x24) S1x128x24x24.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x96x96.size a ≤ S16x64x96x96.size a
  hwx1_0 : ∀ i : grid1.Coords, EltTy.bits .f32 = 32 ∨ (Rect.block (s := S16x64x96x96) S1x64x96x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x24x24.size a ≤ S16x64x24x24.size a
  hwx1_1 : ∀ i : grid1.Coords, EltTy.bits .f32 = 32 ∨ (Rect.block (s := S16x64x24x24) S1x64x24x24.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x192x192.size a ≤ S16x32x192x192.size a
  hwx2_0 : ∀ i : grid2.Coords, EltTy.bits .f32 = 32 ∨ (Rect.block (s := S16x32x192x192) S1x32x192x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x24x24.size a ≤ S16x32x24x24.size a
  hwx2_1 : ∀ i : grid2.Coords, EltTy.bits .f32 = 32 ∨ (Rect.block (s := S16x32x24x24) S1x32x24x24.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16x384x384.size a ≤ S16x16x384x384.size a
  hwx3_0 : ∀ i : grid3.Coords, EltTy.bits .f32 = 32 ∨ (Rect.block (s := S16x16x384x384) S1x16x384x384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x16x24x24.size a ≤ S16x16x24x24.size a
  hwx3_1 : ∀ i : grid3.Coords, EltTy.bits .f32 = 32 ∨ (Rect.block (s := S16x16x24x24) S1x16x24x24.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x128x24x24.size a ≤ S16x128x24x24.size a
  hwx4_0 : ∀ i : grid4.Coords, EltTy.bits .f32 = 32 ∨ (Rect.block (s := S16x128x24x24) S1x128x24x24.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x64x24x24.size a ≤ S16x64x24x24.size a
  hwx4_1 : ∀ i : grid4.Coords, EltTy.bits .f32 = 32 ∨ (Rect.block (s := S16x64x24x24) S1x64x24x24.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x32x24x24.size a ≤ S16x32x24x24.size a
  hwx4_2 : ∀ i : grid4.Coords, EltTy.bits .f32 = 32 ∨ (Rect.block (s := S16x32x24x24) S1x32x24x24.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x16x24x24.size a ≤ S16x16x24x24.size a
  hwx4_3 : ∀ i : grid4.Coords, EltTy.bits .f32 = 32 ∨ (Rect.block (s := S16x16x24x24) S1x16x24x24.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x256x24x24.size a ≤ S16x256x24x24.size a
  hwx4_4 : ∀ i : grid4.Coords, EltTy.bits .f32 = 32 ∨ (Rect.block (s := S16x256x24x24) S1x256x24x24.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x256x24x24.size a ≤ S16x256x24x24.size a
  hwx4_5 : ∀ i : grid4.Coords, EltTy.bits .f32 = 32 ∨ (Rect.block (s := S16x256x24x24) S1x256x24x24.size (cc4_transform_5 i) (hinb4_5 i)).WholeWords (EltTy.packing .f32)

variable [Facts₀]

abbrev win0_0 : Pipeline.Window sig grid0 :=
  Pipeline.Window.ofSpec (Memref.whole main_arg0) S1x128x48x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x24x24.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x64x96x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x64x24x24.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1x32x192x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x32x24x24.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S1x16x384x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x16x24x24.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v0) S1x128x24x24.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S1x64x24x24.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x32x24x24.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3) S1x16x24x24.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg4) S1x256x24x24.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v4) S1x256x24x24.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S16x128x48x48 : Shape := ⟨4, ![16, 128, 48, 48]⟩
abbrev S16x64x96x96 : Shape := ⟨4, ![16, 64, 96, 96]⟩
abbrev S16x32x192x192 : Shape := ⟨4, ![16, 32, 192, 192]⟩
abbrev S16x16x384x384 : Shape := ⟨4, ![16, 16, 384, 384]⟩
abbrev S16x256x24x24 : Shape := ⟨4, ![16, 256, 24, 24]⟩
abbrev S_ : Shape := ⟨0, ![]⟩
abbrev S16x128x24x24 : Shape := ⟨4, ![16, 128, 24, 24]⟩
abbrev S1x16x1x128x1x24x1x24 : Shape := ⟨8, ![1, 16, 1, 128, 1, 24, 1, 24]⟩
abbrev S1x16x2x128x1x24x1x24 : Shape := ⟨8, ![1, 16, 2, 128, 1, 24, 1, 24]⟩
abbrev S16x64x24x24 : Shape := ⟨4, ![16, 64, 24, 24]⟩
abbrev S1x16x1x64x1x24x1x24 : Shape := ⟨8, ![1, 16, 1, 64, 1, 24, 1, 24]⟩
abbrev S1x16x4x64x1x24x1x24 : Shape := ⟨8, ![1, 16, 4, 64, 1, 24, 1, 24]⟩
abbrev S16x32x24x24 : Shape := ⟨4, ![16, 32, 24, 24]⟩
abbrev S1x16x1x32x1x24x1x24 : Shape := ⟨8, ![1, 16, 1, 32, 1, 24, 1, 24]⟩
abbrev S1x16x8x32x1x24x1x24 : Shape := ⟨8, ![1, 16, 8, 32, 1, 24, 1, 24]⟩
abbrev S16x16x24x24 : Shape := ⟨4, ![16, 16, 24, 24]⟩
abbrev S1x16x1x16x1x24x1x24 : Shape := ⟨8, ![1, 16, 1, 16, 1, 24, 1, 24]⟩
abbrev S1x16x16x16x1x24x1x24 : Shape := ⟨8, ![1, 16, 16, 16, 1, 24, 1, 24]⟩

abbrev nBuf : Space → Nat
  | .hbm => 36
  | .vmem => 0
  | .smem => 0
  | _ => 0

abbrev bufTy : (tb : Table) → Fin (tcTables nBuf tb) → BufTy
  | .hbm, ⟨0, _⟩ => ⟨S16x128x48x48, .f32⟩
  | .hbm, ⟨1, _⟩ => ⟨S16x64x96x96, .f32⟩
  | .hbm, ⟨2, _⟩ => ⟨S16x32x192x192, .f32⟩
  | .hbm, ⟨3, _⟩ => ⟨S16x16x384x384, .f32⟩
  | .hbm, ⟨4, _⟩ => ⟨S16x256x24x24, .f32⟩
  | .hbm, ⟨5, _⟩ => ⟨S_, .f32⟩
  | .hbm, ⟨6, _⟩ => ⟨S_, .f32⟩
  | .hbm, ⟨7, _⟩ => ⟨S16x128x24x24, .f32⟩
  | .hbm, ⟨8, _⟩ => ⟨S1x16x1x128x1x24x1x24, .f32⟩
  | .hbm, ⟨9, _⟩ => ⟨S1x16x2x128x1x24x1x24, .f32⟩
  | .hbm, ⟨10, _⟩ => ⟨S16x256x24x24, .f32⟩
  | .hbm, ⟨11, _⟩ => ⟨S_, .f32⟩
  | .hbm, ⟨12, _⟩ => ⟨S_, .f32⟩
  | .hbm, ⟨13, _⟩ => ⟨S16x64x24x24, .f32⟩
  | .hbm, ⟨14, _⟩ => ⟨S1x16x1x64x1x24x1x24, .f32⟩
  | .hbm, ⟨15, _⟩ => ⟨S1x16x4x64x1x24x1x24, .f32⟩
  | .hbm, ⟨16, _⟩ => ⟨S16x256x24x24, .f32⟩
  | .hbm, ⟨17, _⟩ => ⟨S_, .f32⟩
  | .hbm, ⟨18, _⟩ => ⟨S_, .f32⟩
  | .hbm, ⟨19, _⟩ => ⟨S16x32x24x24, .f32⟩
  | .hbm, ⟨20, _⟩ => ⟨S1x16x1x32x1x24x1x24, .f32⟩
  | .hbm, ⟨21, _⟩ => ⟨S1x16x8x32x1x24x1x24, .f32⟩
  | .hbm, ⟨22, _⟩ => ⟨S16x256x24x24, .f32⟩
  | .hbm, ⟨23, _⟩ => ⟨S_, .f32⟩
  | .hbm, ⟨24, _⟩ => ⟨S_, .f32⟩
  | .hbm, ⟨25, _⟩ => ⟨S16x16x24x24, .f32⟩
  | .hbm, ⟨26, _⟩ => ⟨S1x16x1x16x1x24x1x24, .f32⟩
  | .hbm, ⟨27, _⟩ => ⟨S1x16x16x16x1x24x1x24, .f32⟩
  | .hbm, ⟨28, _⟩ => ⟨S16x256x24x24, .f32⟩
  | .hbm, ⟨29, _⟩ => ⟨S16x256x24x24, .f32⟩
  | .hbm, ⟨30, _⟩ => ⟨S16x256x24x24, .f32⟩
  | .hbm, ⟨31, _⟩ => ⟨S16x256x24x24, .f32⟩
  | .hbm, ⟨32, _⟩ => ⟨S16x256x24x24, .f32⟩
  | .hbm, ⟨33, _⟩ => ⟨S_, .f32⟩
  | .hbm, ⟨34, _⟩ => ⟨S16x256x24x24, .f32⟩
  | .hbm, ⟨35, _⟩ => ⟨S16x256x24x24, .f32⟩
  | _, _ => ⟨S16x128x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x128x48x48_S16x128x24x24_w1s1p0_0_w1s1p0_0_w2s2p0_0_w2s2p0_0 : S16x128x48x48.ReduceWindows (![1, 1, 2, 2] : Fin 4 → Nat) ![1, 1, 2, 2] ![0, 0, 0, 0] ![0, 0, 0, 0] S16x128x24x24
  h_S_ : 0 < S_.numel
  shapeCasts_S16x128x24x24_S1x16x1x128x1x24x1x24 : S16x128x24x24.ShapeCasts S1x16x1x128x1x24x1x24
  bcast_S1x16x1x128x1x24x1x24_S1x16x2x128x1x24x1x24_0_1_2_3_4_5_6_7 : S1x16x1x128x1x24x1x24.BroadcastsInDim S1x16x2x128x1x24x1x24 (![0, 1, 2, 3, 4, 5, 6, 7] : Fin 8 → Fin S1x16x2x128x1x24x1x24.rank)
  shapeCasts_S1x16x2x128x1x24x1x24_S16x256x24x24 : S1x16x2x128x1x24x1x24.ShapeCasts S16x256x24x24
  reduceWindows_S16x64x96x96_S16x64x24x24_w1s1p0_0_w1s1p0_0_w4s4p0_0_w4s4p0_0 : S16x64x96x96.ReduceWindows (![1, 1, 4, 4] : Fin 4 → Nat) ![1, 1, 4, 4] ![0, 0, 0, 0] ![0, 0, 0, 0] S16x64x24x24
  shapeCasts_S16x64x24x24_S1x16x1x64x1x24x1x24 : S16x64x24x24.ShapeCasts S1x16x1x64x1x24x1x24
  bcast_S1x16x1x64x1x24x1x24_S1x16x4x64x1x24x1x24_0_1_2_3_4_5_6_7 : S1x16x1x64x1x24x1x24.BroadcastsInDim S1x16x4x64x1x24x1x24 (![0, 1, 2, 3, 4, 5, 6, 7] : Fin 8 → Fin S1x16x4x64x1x24x1x24.rank)
  shapeCasts_S1x16x4x64x1x24x1x24_S16x256x24x24 : S1x16x4x64x1x24x1x24.ShapeCasts S16x256x24x24
  reduceWindows_S16x32x192x192_S16x32x24x24_w1s1p0_0_w1s1p0_0_w8s8p0_0_w8s8p0_0 : S16x32x192x192.ReduceWindows (![1, 1, 8, 8] : Fin 4 → Nat) ![1, 1, 8, 8] ![0, 0, 0, 0] ![0, 0, 0, 0] S16x32x24x24
  shapeCasts_S16x32x24x24_S1x16x1x32x1x24x1x24 : S16x32x24x24.ShapeCasts S1x16x1x32x1x24x1x24
  bcast_S1x16x1x32x1x24x1x24_S1x16x8x32x1x24x1x24_0_1_2_3_4_5_6_7 : S1x16x1x32x1x24x1x24.BroadcastsInDim S1x16x8x32x1x24x1x24 (![0, 1, 2, 3, 4, 5, 6, 7] : Fin 8 → Fin S1x16x8x32x1x24x1x24.rank)
  shapeCasts_S1x16x8x32x1x24x1x24_S16x256x24x24 : S1x16x8x32x1x24x1x24.ShapeCasts S16x256x24x24
  reduceWindows_S16x16x384x384_S16x16x24x24_w1s1p0_0_w1s1p0_0_w16s16p0_0_w16s16p0_0 : S16x16x384x384.ReduceWindows (![1, 1, 16, 16] : Fin 4 → Nat) ![1, 1, 16, 16] ![0, 0, 0, 0] ![0, 0, 0, 0] S16x16x24x24
  shapeCasts_S16x16x24x24_S1x16x1x16x1x24x1x24 : S16x16x24x24.ShapeCasts S1x16x1x16x1x24x1x24
  bcast_S1x16x1x16x1x24x1x24_S1x16x16x16x1x24x1x24_0_1_2_3_4_5_6_7 : S1x16x1x16x1x24x1x24.BroadcastsInDim S1x16x16x16x1x24x1x24 (![0, 1, 2, 3, 4, 5, 6, 7] : Fin 8 → Fin S1x16x16x16x1x24x1x24.rank)
  shapeCasts_S1x16x16x16x1x24x1x24_S16x256x24x24 : S1x16x16x16x1x24x1x24.ShapeCasts S16x256x24x24
  bcast_S_S16x256x24x24 : S_.BroadcastsInDim S16x256x24x24 (![] : Fin 0 → Fin S16x256x24x24.rank)

variable [Facts₀]

class Facts : Prop extends Facts₀ where

variable [Facts]
-- ==== Proof.Spec.lean ====
/-
  The function both programs compute, over the extended reals, index by index.

  Four inputs x₁ … x₄ of shapes [16, C, 24·k, 24·k] with (C, k) = (128, 2), (64, 4), (32, 8), (16, 16) are max-pooled over
  non-overlapping k × k windows of their last two axes to [16, C, 24, 24]; each pooled array is repeated along the channel
  axis to 256 channels (channel c' reads channel c' mod C); the four are added to a fifth input of shape [16, 256, 24, 24]
  and the sum is clamped below at zero.  A pooled entry is the supremum of its window: `pool_le_iff` is its universal
  property, the form in which both programs' folds of `max` from -∞ are compared with it.
-/
import Idealize.ShloMosaic.PureOps.Ideal
import Idealize.ShloMosaic.Lib.ValueIdx

noncomputable section

namespace Cert.Spec

open Idealize.ShloMosaic Idealize.ShloMosaic.ValueIdx

abbrev A1 : Shape := ⟨4, ![16, 128, 48, 48]⟩
abbrev A2 : Shape := ⟨4, ![16, 64, 96, 96]⟩
abbrev A3 : Shape := ⟨4, ![16, 32, 192, 192]⟩
abbrev A4 : Shape := ⟨4, ![16, 16, 384, 384]⟩
abbrev P1 : Shape := ⟨4, ![16, 128, 24, 24]⟩
abbrev P2 : Shape := ⟨4, ![16, 64, 24, 24]⟩
abbrev P3 : Shape := ⟨4, ![16, 32, 24, 24]⟩
abbrev P4 : Shape := ⟨4, ![16, 16, 24, 24]⟩
abbrev O : Shape := ⟨4, ![16, 256, 24, 24]⟩

/-- The window entry of x₁ at offset (kh, kw) in the 2 × 2 window of the pooled index (b, c, ho, wo). -/
abbrev win1 (x : FVec Ideal A1 .f32) (b : Fin 16) (c : Fin 128) (ho wo : Fin 24) (kh kw : Fin 2) : EReal :=
  x (ix4 b c (⟨ho.val * 2 + kh.val, by omega⟩ : Fin 48) (⟨wo.val * 2 + kw.val, by omega⟩ : Fin 48))
/-- The window entry of x₂ at offset (kh, kw) in the 4 × 4 window of the pooled index (b, c, ho, wo). -/
abbrev win2 (x : FVec Ideal A2 .f32) (b : Fin 16) (c : Fin 64) (ho wo : Fin 24) (kh kw : Fin 4) : EReal :=
  x (ix4 b c (⟨ho.val * 4 + kh.val, by omega⟩ : Fin 96) (⟨wo.val * 4 + kw.val, by omega⟩ : Fin 96))
/-- The window entry of x₃ at offset (kh, kw) in the 8 × 8 window of the pooled index (b, c, ho, wo). -/
abbrev win3 (x : FVec Ideal A3 .f32) (b : Fin 16) (c : Fin 32) (ho wo : Fin 24) (kh kw : Fin 8) : EReal :=
  x (ix4 b c (⟨ho.val * 8 + kh.val, by omega⟩ : Fin 192) (⟨wo.val * 8 + kw.val, by omega⟩ : Fin 192))
/-- The window entry of x₄ at offset (kh, kw) in the 16 × 16 window of the pooled index (b, c, ho, wo). -/
abbrev win4 (x : FVec Ideal A4 .f32) (b : Fin 16) (c : Fin 16) (ho wo : Fin 24) (kh kw : Fin 16) : EReal :=
  x (ix4 b c (⟨ho.val * 16 + kh.val, by omega⟩ : Fin 384) (⟨wo.val * 16 + kw.val, by omega⟩ : Fin 384))

/-- x₁ max-pooled: the supremum of each 2 × 2 window. -/
def pool1 (x : FVec Ideal A1 .f32) : FVec Ideal P1 .f32 := fun j =>
  Finset.univ.sup fun q : Fin 2 × Fin 2 => win1 x (j 0) (j 1) (j 2) (j 3) q.1 q.2
/-- x₂ max-pooled: the supremum of each 4 × 4 window. -/
def pool2 (x : FVec Ideal A2 .f32) : FVec Ideal P2 .f32 := fun j =>
  Finset.univ.sup fun q : Fin 4 × Fin 4 => win2 x (j 0) (j 1) (j 2) (j 3) q.1 q.2
/-- x₃ max-pooled: the supremum of each 8 × 8 window. -/
def pool3 (x : FVec Ideal A3 .f32) : FVec Ideal P3 .f32 := fun j =>
  Finset.univ.sup fun q : Fin 8 × Fin 8 => win3 x (j 0) (j 1) (j 2) (j 3) q.1 q.2
/-- x₄ max-pooled: the supremum of each 16 × 16 window. -/
def pool4 (x : FVec Ideal A4 .f32) : FVec Ideal P4 .f32 := fun j =>
  Finset.univ.sup fun q : Fin 16 × Fin 16 => win4 x (j 0) (j 1) (j 2) (j 3) q.1 q.2

/-- A value is the pooled entry as soon as it has the supremum's universal property. -/
theorem eq_pool1 (x : FVec Ideal A1 .f32) (b : Fin 16) (c : Fin 128) (ho wo : Fin 24) (v : EReal)
    (h : ∀ y : EReal, v ≤ y ↔ ∀ kh kw : Fin 2, win1 x b c ho wo kh kw ≤ y) : v = pool1 x (ix4 b c ho wo) :=
  eq_of_forall_ge_iff fun y => by
    rw [h y]; unfold pool1
    simp only [Finset.sup_le_iff, Finset.mem_univ, true_implies, Prod.forall]
theorem eq_pool2 (x : FVec Ideal A2 .f32) (b : Fin 16) (c : Fin 64) (ho wo : Fin 24) (v : EReal)
    (h : ∀ y : EReal, v ≤ y ↔ ∀ kh kw : Fin 4, win2 x b c ho wo kh kw ≤ y) : v = pool2 x (ix4 b c ho wo) :=
  eq_of_forall_ge_iff fun y => by
    rw [h y]; unfold pool2
    simp only [Finset.sup_le_iff, Finset.mem_univ, true_implies, Prod.forall]
theorem eq_pool3 (x : FVec Ideal A3 .f32) (b : Fin 16) (c : Fin 32) (ho wo : Fin 24) (v : EReal)
    (h : ∀ y : EReal, v ≤ y ↔ ∀ kh kw : Fin 8, win3 x b c ho wo kh kw ≤ y) : v = pool3 x (ix4 b c ho wo) :=
  eq_of_forall_ge_iff fun y => by
    rw [h y]; unfold pool3
    simp only [Finset.sup_le_iff, Finset.mem_univ, true_implies, Prod.forall]
theorem eq_pool4 (x : FVec Ideal A4 .f32) (b : Fin 16) (c : Fin 16) (ho wo : Fin 24) (v : EReal)
    (h : ∀ y : EReal, v ≤ y ↔ ∀ kh kw : Fin 16, win4 x b c ho wo kh kw ≤ y) : v = pool4 x (ix4 b c ho wo) :=
  eq_of_forall_ge_iff fun y => by
    rw [h y]; unfold pool4
    simp only [Finset.sup_le_iff, Finset.mem_univ, true_implies, Prod.forall]

/-- The four pooled arrays, each repeated along the channel axis, added in turn to the fifth input; then the
    maximum with zero. -/
def combine (p1 : FVec Ideal P1 .f32) (p2 : FVec Ideal P2 .f32) (p3 : FVec Ideal P3 .f32) (p4 : FVec Ideal P4 .f32)
    (ff : FVec Ideal O .f32) : FVec Ideal O .f32 := fun j =>
  max (ff j
        + p1 (ix4 (j 0) (⟨(j 1).val % 128, Nat.mod_lt _ (by decide)⟩ : Fin 128) (j 2) (j 3))
        + p2 (ix4 (j 0) (⟨(j 1).val % 64, Nat.mod_lt _ (by decide)⟩ : Fin 64) (j 2) (j 3))
        + p3 (ix4 (j 0) (⟨(j 1).val % 32, Nat.mod_lt _ (by decide)⟩ : Fin 32) (j 2) (j 3))
        + p4 (ix4 (j 0) (⟨(j 1).val % 16, Nat.mod_lt _ (by decide)⟩ : Fin 16) (j 2) (j 3)))
    (FloatOps.ofBits (F := Ideal) .f32 0x00000000#32)

/-- The result as one function of the five inputs. -/
def result (x1 : FVec Ideal A1 .f32) (x2 : FVec Ideal A2 .f32) (x3 : FVec Ideal A3 .f32) (x4 : FVec Ideal A4 .f32)
    (ff : FVec Ideal O .f32) : FVec Ideal O .f32 :=
  combine (pool1 x1) (pool2 x2) (pool3 x3) (pool4 x4) ff

end Cert.Spec

end
-- ==== Proof.Pool1.lean ====
/-
  The first pooling call, read as a value.

  The call has one grid point per batch entry.  At point t it is given block t of its input array, of shape
  [1, 128, 48, 48], and leaves in block t of its output array, of shape [1, 128, 24, 24], a value computed in two
  stages: rows are taken in groups of 2 and the maximum over each group is formed (from -∞), then columns are taken in
  groups of 2 and the maximum over each group is formed (from -∞).  So the output entry (c, ho, wo) is the maximum over the
  column offset kw of the maximum over the row offset kh of the input entry (c, ho·2 + kh, wo·2 + kw): a fold of
  folds of `max` from the least extended real, which has the universal property of the supremum of the 2 × 2 window.
  The blocks tile the output array (the point covering batch entry b is b), so the array ends as the pooled input.
-/
import proofs.«104571_j88167088652743_1_alg».proof.Proof.Gen.KernelIdeal.Frame
import proofs.«104571_j88167088652743_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.Finset.Fold

set_option maxRecDepth 16384

noncomputable section

namespace Cert.KernelIdeal.Pool1

open Idealize.ShloMosaic Idealize.ShloMosaic.TcCoe Idealize.ShloMosaic.ValueIdx Idealize.SL.Sem
open Cert.KernelIdeal Cert.KernelIdeal.Gen

/-! ## Folds of `max` from -∞ -/

/-- The word both reductions start from is -∞, the least extended real. -/
theorem negInf_eq_bot : FloatOps.ofBits (F := Ideal) .f32 0xFF800000#32 = (⊥ : EReal) := by
  show Ideal.ofBits .f32 0xFF800000#32 = ⊥
  simp [Ideal.ofBits, Ideal.ieee]

/-- A fold of `max` from -∞ over a whole finite type is below `y` exactly when every term is. -/
theorem fold_max_bot_le {ι : Type} [Fintype ι] (f : ι → EReal) (y : EReal) :
    Finset.univ.fold max (FloatOps.ofBits (F := Ideal) .f32 0xFF800000#32) f ≤ y ↔ ∀ k, f k ≤ y := by
  rw [Finset.fold_max_le, negInf_eq_bot]
  simp only [bot_le, true_and, Finset.mem_univ, true_implies]

/-- A maximum-reduction over one axis, at a reduced index `j`: the fold of `max` from the accumulator's value over
    the coordinate `k` of the dropped axis, of the source at `j` with `k` inserted. -/
theorem reduce_max_apply {s t : Shape} {φ : FTy} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Finset.univ : Finset (Fin (s.size a))).fold max (FloatOps.ofBits φ acc) (fun k => src (h.lift j k)) :=
  Ideal.multiReduction_maximumf_single src acc h hφ hacc j

/-! ## The payload at an index -/

/-- The stored value at (u, c, ho, wo): the maximum over the column offset `kw` of the maximum over the row offset
    `kh` of the block's entry (0, c, ho·2 + kh, wo·2 + kw).  Read from the outside in: the unit axis is put back; the
    second reduction runs over the leading axis of the arrangement [2, 128, 24, 24], which is the transposed
    [128, 24, 24, 2], which is [128, 24, 48] with each row of 48 split into 24 groups of 2 (column wo·2 + kw); the first
    reduction runs over the leading axis of [2, 128, 24, 48], the transposed [128, 24, 2, 48], which is
    [128, 48, 48] with the 48 rows split into 24 groups of 2 (row ho·2 + kh); and [128, 48, 48] is the block without its
    unit axis.  Each regrouping keeps the row-major position. -/
theorem pay_apply (x : Vec Ideal S1x128x48x48 .f32) (u : Fin 1) (c : Fin 128) (ho wo : Fin 24) :
    k0_pay1 (F := Ideal) x (ix4 u c ho wo)
      = Finset.univ.fold max (FloatOps.ofBits (F := Ideal) .f32 0xFF800000#32) (fun kw : Fin 2 =>
          Finset.univ.fold max (FloatOps.ofBits (F := Ideal) .f32 0xFF800000#32) (fun kh : Fin 2 =>
            x (ix4 (0 : Fin 1) c (⟨ho.val * 2 + kh.val, by omega⟩ : Fin 48) (⟨wo.val * 2 + kw.val, by omega⟩ : Fin 48)))) := by
  unfold k0_pay1
  refine (shapeCast_abc_1abc_apply _ _ u c ho wo).trans ?_
  refine (reduce_max_apply _ _ _ _ _ (ix3 c ho wo)).trans ?_
  refine Finset.fold_congr (fun (kw : Fin 2) _ => ?_)
  refine (transpose_apply _ _ transposes_S128x24x24x2_p3_0_1_2_S2x128x24x24 _ (ix4 c ho wo kw)
    (fun b => match b with | ⟨0, _⟩ => rfl | ⟨1, _⟩ => rfl | ⟨2, _⟩ => rfl | ⟨3, _⟩ => rfl)).trans ?_
  refine (shapeCast_apply _ shapeCasts_S128x24x48_S128x24x24x2 _ (ix3 c ho (⟨wo.val * 2 + kw.val, by omega⟩ : Fin 48)) (by
    rw [Shape.rowMajor_val_three, Shape.rowMajor_val_four]
    show (c.val * 24 + ho.val) * 48 + (wo.val * 2 + kw.val) = ((c.val * 24 + ho.val) * 24 + wo.val) * 2 + kw.val
    omega)).trans ?_
  refine (reduce_max_apply _ _ _ _ _ (ix3 c ho (⟨wo.val * 2 + kw.val, by omega⟩ : Fin 48))).trans ?_
  refine Finset.fold_congr (fun (kh : Fin 2) _ => ?_)
  refine (transpose_apply _ _ transposes_S128x24x2x48_p2_0_1_3_S2x128x24x48 _ (ix4 c ho kh (⟨wo.val * 2 + kw.val, by omega⟩ : Fin 48))
    (fun b => match b with | ⟨0, _⟩ => rfl | ⟨1, _⟩ => rfl | ⟨2, _⟩ => rfl | ⟨3, _⟩ => rfl)).trans ?_
  refine (shapeCast_apply _ shapeCasts_S128x48x48_S128x24x2x48 _
    (ix3 c (⟨ho.val * 2 + kh.val, by omega⟩ : Fin 48) (⟨wo.val * 2 + kw.val, by omega⟩ : Fin 48)) (by
    rw [Shape.rowMajor_val_three, Shape.rowMajor_val_four]
    show (c.val * 48 + (ho.val * 2 + kh.val)) * 48 + (wo.val * 2 + kw.val)
      = ((c.val * 24 + ho.val) * 2 + kh.val) * 48 + (wo.val * 2 + kw.val)
    omega)).trans ?_
  exact shapeCast_1abc_abc_apply _ _ c _ _

/-- When the block `x` is batch entry `b` of the array `X`, the stored value at (u, c, ho, wo) is the pooled array at
    (b, c, ho, wo): it is below `y` exactly when every entry of the 2 × 2 window is, which characterises the supremum. -/
theorem pay_eq_pool (X : FVec Ideal Cert.Spec.A1 .f32) (x : Vec Ideal S1x128x48x48 .f32) (b : Fin 16)
    (hx : ∀ (c : Fin 128) (h w : Fin 48), x (ix4 (0 : Fin 1) c h w) = X (ix4 b c h w))
    (u : Fin 1) (c : Fin 128) (ho wo : Fin 24) :
    k0_pay1 (F := Ideal) x (ix4 u c ho wo) = Cert.Spec.pool1 X (ix4 b c ho wo) := by
  refine Cert.Spec.eq_pool1 X b c ho wo _ (fun y => ?_)
  rw [pay_apply, fold_max_bot_le]
  simp only [fold_max_bot_le, hx]
  exact forall_comm

/-- The same at an index `j` of the block and an index `i` of the array given by their coordinates: `i` is `j` with
    the unit coordinate replaced by the batch entry `b`. -/
theorem pay_eq_pool_at (X : FVec Ideal Cert.Spec.A1 .f32) (x : Vec Ideal S1x128x48x48 .f32) (b : Fin 16)
    (hx : ∀ (c : Fin 128) (h w : Fin 48), x (ix4 (0 : Fin 1) c h w) = X (ix4 b c h w))
    (j : S1x128x24x24.Idx) (i : Cert.Spec.P1.Idx)
    (h0 : (i 0).val = b.val) (h1 : (i 1).val = (j 1).val) (h2 : (i 2).val = (j 2).val) (h3 : (i 3).val = (j 3).val) :
    k0_pay1 (F := Ideal) x j = Cert.Spec.pool1 X i := by
  obtain ⟨u, c, ho, wo, rfl⟩ : ∃ (u : Fin 1) (c : Fin 128) (ho wo : Fin 24), j = ix4 u c ho wo :=
    ⟨_, _, _, _, eq_ix4 j⟩
  obtain rfl : i = ix4 b c ho wo := funext fun a => Fin.ext (by
    match a with
    | ⟨0, _⟩ => exact h0
    | ⟨1, _⟩ => exact h1
    | ⟨2, _⟩ => exact h2
    | ⟨3, _⟩ => exact h3)
  exact pay_eq_pool X x b hx u c ho wo

/-! ## From blocks to the array -/

theorem hz : (![0, 0, 0, 0] : Fin 4 → Nat) = fun _ => 0 := funext fun a => by fin_cases a <;> rfl

/-- The index maps over the grid: at point `t` both windows' blocks are number `t` along the batch axis and number 0
    along the other three. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- What point `t` writes back is block `t` of the pooled input array.  The body's one store fills the output block with
    the payload of the input block; the input block is batch entry `t` of the input array and the output block's entry
    `j` sits at `j` with the unit coordinate replaced by `t` (a block's coordinate is its number times its size plus the
    coordinate inside it). -/
theorem flushed_eq (V : (c : Dev nD) → (b : Ref sig .tc) → Buf (Elt Ideal) ((c : Thread nD τ).loc b)) (c : Dev nD)
    (t : Fin cfg0.N) :
    (dat0 (F := Ideal) V c).flushed 1 t
      = ((cfg0.win 1).blk t).view.read (Elt Ideal) (Cert.Spec.pool1 (V c main_arg0)) := by
  show (cfg0.win 1).cut (grid0.coords t) ((dat0 V c).after 1 t) = _
  rw [after0_1]
  unfold out0_1
  rw [View.canon_unit_zero hz]
  simp only [View.ld_unit_zero (S := S1x128x48x48) hz]
  obtain ⟨d0, d1, d2, d3, e0, e1, e2, e3⟩ := idx_facts t
  have ht : t.val < 16 := lt_of_lt_of_eq t.isLt N_0
  funext j
  show k0_pay1 (F := Ideal) (iblk0 V c 0 t) j
    = Cert.Spec.pool1 (V c main_arg0) (((cfg0.win 1).blk t).view.emb j)
  refine pay_eq_pool_at (V c main_arg0) (iblk0 V c 0 t) ⟨t.val, ht⟩ (fun c' h w => ?_) j _ ?_ ?_ ?_ ?_
  · show V c main_arg0 (((cfg0.win 0).blk t).view.emb (ix4 (0 : Fin 1) c' h w))
      = V c main_arg0 (ix4 (⟨t.val, ht⟩ : Fin 16) c' h w)
    refine congrArg _ (funext fun a => Fin.ext ?_)
    match a with
    | ⟨0, _⟩ => show win0_0.index t (0 : Fin 4) * 1 + 1 * 0 = t.val; omega
    | ⟨1, _⟩ => show win0_0.index t (1 : Fin 4) * 128 + 1 * c'.val = c'.val; omega
    | ⟨2, _⟩ => show win0_0.index t (2 : Fin 4) * 48 + 1 * h.val = h.val; omega
    | ⟨3, _⟩ => show win0_0.index t (3 : Fin 4) * 48 + 1 * w.val = w.val; omega
  · show win0_1.index t (0 : Fin 4) * 1 + 1 * (j 0).val = t.val
    have hj : (j 0).val < 1 := (j 0).isLt
    omega
  · show win0_1.index t (1 : Fin 4) * 128 + 1 * (j 1).val = (j 1).val; omega
  · show win0_1.index t (2 : Fin 4) * 24 + 1 * (j 2).val = (j 2).val; omega
  · show win0_1.index t (3 : Fin 4) * 24 + 1 * (j 3).val = (j 3).val; omega

/-- An index of the output array is in point `t`'s block iff each coordinate is in the block's range on its axis. -/
theorem mem_blk (t : Fin cfg0.N) (i : S16x128x24x24.Idx) :
    i ∈ ((cfg0.win 1).blk t).view.set
      ↔ ∀ a : Fin 4, win0_1.index t a * S1x128x24x24.size a ≤ (i a).val
          ∧ (i a).val < win0_1.index t a * S1x128x24x24.size a + S1x128x24x24.size a := by
  show i ∈ ((View.whole main_v0).slice (win0_1.rect t)).set ↔ _
  rw [View.set_slice_whole, Rect.mem_set_unit]
  exact Iff.rfl

/-- The blocks tile the output array: the index (b, c, ho, wo) is in the block of point `b`, which is written back. -/
theorem cover (i : S16x128x24x24.Idx) :
    ∃ t : Fin cfg0.N, (cfg0.win 1).flush t = true ∧ i ∈ ((cfg0.win 1).blk t).view.set := by
  have hi0 : (i 0).val < 16 := (i 0).isLt
  have hi1 : (i 1).val < 128 := (i 1).isLt
  have hi2 : (i 2).val < 24 := (i 2).isLt
  have hi3 : (i 3).val < 24 := (i 3).isLt
  have hN : cfg0.N = 16 := N_0
  obtain ⟨t, ht⟩ : ∃ t : Fin cfg0.N, t.val = (i 0).val := ⟨⟨(i 0).val, by rw [hN]; exact hi0⟩, rfl⟩
  obtain ⟨d0, d1, d2, d3, e0, e1, e2, e3⟩ := idx_facts t
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1; omega
  | ⟨1, _⟩ =>
    show win0_1.index t (1 : Fin 4) * 128 ≤ (i 1).val ∧ (i 1).val < win0_1.index t (1 : Fin 4) * 128 + 128; omega
  | ⟨2, _⟩ =>
    show win0_1.index t (2 : Fin 4) * 24 ≤ (i 2).val ∧ (i 2).val < win0_1.index t (2 : Fin 4) * 24 + 24; omega
  | ⟨3, _⟩ =>
    show win0_1.index t (3 : Fin 4) * 24 ≤ (i 3).val ∧ (i 3).val < win0_1.index t (3 : Fin 4) * 24 + 24; omega

/-- The first pooling call leaves in its output array the 2 × 2 max-pooling of its input array, whatever the
    contents `V` it is entered with. -/
theorem arr (V : (c : Dev nD) → (b : Ref sig .tc) → Buf (Elt Ideal) ((c : Thread nD τ).loc b)) (c : Dev nD) :
    (dat0 (F := Ideal) V c).arrAt 1 cfg0.N = Cert.Spec.pool1 (V c main_arg0) :=
  (dat0 (F := Ideal) V c).arrAt_eq_of_cover 1 (Cert.Spec.pool1 (V c main_arg0))
    (fun t _ => flushed_eq V c t) cover

end Cert.KernelIdeal.Pool1

end
-- ==== Proof.Pool2.lean ====
/-
  The second pooling call, read as a value.

  The call has one grid point per batch entry.  At point t it is given block t of its input array, of shape
  [1, 64, 96, 96], and leaves in block t of its output array, of shape [1, 64, 24, 24], a value computed in two
  stages: rows are taken in groups of 4 and the maximum over each group is formed (from -∞), then columns are taken in
  groups of 4 and the maximum over each group is formed (from -∞).  So the output entry (c, ho, wo) is the maximum over the
  column offset kw of the maximum over the row offset kh of the input entry (c, ho·4 + kh, wo·4 + kw): a fold of
  folds of `max` from the least extended real, which has the universal property of the supremum of the 4 × 4 window.
  The blocks tile the output array (the point covering batch entry b is b), so the array ends as the pooled input.
-/
import proofs.«104571_j88167088652743_1_alg».proof.Proof.Gen.KernelIdeal.Frame
import proofs.«104571_j88167088652743_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.Finset.Fold

set_option maxRecDepth 16384

noncomputable section

namespace Cert.KernelIdeal.Pool2

open Idealize.ShloMosaic Idealize.ShloMosaic.TcCoe Idealize.ShloMosaic.ValueIdx Idealize.SL.Sem
open Cert.KernelIdeal Cert.KernelIdeal.Gen

/-! ## Folds of `max` from -∞ -/

/-- The word both reductions start from is -∞, the least extended real. -/
theorem negInf_eq_bot : FloatOps.ofBits (F := Ideal) .f32 0xFF800000#32 = (⊥ : EReal) := by
  show Ideal.ofBits .f32 0xFF800000#32 = ⊥
  simp [Ideal.ofBits, Ideal.ieee]

/-- A fold of `max` from -∞ over a whole finite type is below `y` exactly when every term is. -/
theorem fold_max_bot_le {ι : Type} [Fintype ι] (f : ι → EReal) (y : EReal) :
    Finset.univ.fold max (FloatOps.ofBits (F := Ideal) .f32 0xFF800000#32) f ≤ y ↔ ∀ k, f k ≤ y := by
  rw [Finset.fold_max_le, negInf_eq_bot]
  simp only [bot_le, true_and, Finset.mem_univ, true_implies]

/-- A maximum-reduction over one axis, at a reduced index `j`: the fold of `max` from the accumulator's value over
    the coordinate `k` of the dropped axis, of the source at `j` with `k` inserted. -/
theorem reduce_max_apply {s t : Shape} {φ : FTy} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Finset.univ : Finset (Fin (s.size a))).fold max (FloatOps.ofBits φ acc) (fun k => src (h.lift j k)) :=
  Ideal.multiReduction_maximumf_single src acc h hφ hacc j

/-! ## The payload at an index -/

/-- The stored value at (u, c, ho, wo): the maximum over the column offset `kw` of the maximum over the row offset
    `kh` of the block's entry (0, c, ho·4 + kh, wo·4 + kw).  Read from the outside in: the unit axis is put back; the
    second reduction runs over the leading axis of the arrangement [4, 64, 24, 24], which is the transposed
    [64, 24, 24, 4], which is [64, 24, 96] with each row of 96 split into 24 groups of 4 (column wo·4 + kw); the first
    reduction runs over the leading axis of [4, 64, 24, 96], the transposed [64, 24, 4, 96], which is
    [64, 96, 96] with the 96 rows split into 24 groups of 4 (row ho·4 + kh); and [64, 96, 96] is the block without its
    unit axis.  Each regrouping keeps the row-major position. -/
theorem pay_apply (x : Vec Ideal S1x64x96x96 .f32) (u : Fin 1) (c : Fin 64) (ho wo : Fin 24) :
    k1_pay1 (F := Ideal) x (ix4 u c ho wo)
      = Finset.univ.fold max (FloatOps.ofBits (F := Ideal) .f32 0xFF800000#32) (fun kw : Fin 4 =>
          Finset.univ.fold max (FloatOps.ofBits (F := Ideal) .f32 0xFF800000#32) (fun kh : Fin 4 =>
            x (ix4 (0 : Fin 1) c (⟨ho.val * 4 + kh.val, by omega⟩ : Fin 96) (⟨wo.val * 4 + kw.val, by omega⟩ : Fin 96)))) := by
  unfold k1_pay1
  refine (shapeCast_abc_1abc_apply _ _ u c ho wo).trans ?_
  refine (reduce_max_apply _ _ _ _ _ (ix3 c ho wo)).trans ?_
  refine Finset.fold_congr (fun (kw : Fin 4) _ => ?_)
  refine (transpose_apply _ _ transposes_S64x24x24x4_p3_0_1_2_S4x64x24x24 _ (ix4 c ho wo kw)
    (fun b => match b with | ⟨0, _⟩ => rfl | ⟨1, _⟩ => rfl | ⟨2, _⟩ => rfl | ⟨3, _⟩ => rfl)).trans ?_
  refine (shapeCast_apply _ shapeCasts_S64x24x96_S64x24x24x4 _ (ix3 c ho (⟨wo.val * 4 + kw.val, by omega⟩ : Fin 96)) (by
    rw [Shape.rowMajor_val_three, Shape.rowMajor_val_four]
    show (c.val * 24 + ho.val) * 96 + (wo.val * 4 + kw.val) = ((c.val * 24 + ho.val) * 24 + wo.val) * 4 + kw.val
    omega)).trans ?_
  refine (reduce_max_apply _ _ _ _ _ (ix3 c ho (⟨wo.val * 4 + kw.val, by omega⟩ : Fin 96))).trans ?_
  refine Finset.fold_congr (fun (kh : Fin 4) _ => ?_)
  refine (transpose_apply _ _ transposes_S64x24x4x96_p2_0_1_3_S4x64x24x96 _ (ix4 c ho kh (⟨wo.val * 4 + kw.val, by omega⟩ : Fin 96))
    (fun b => match b with | ⟨0, _⟩ => rfl | ⟨1, _⟩ => rfl | ⟨2, _⟩ => rfl | ⟨3, _⟩ => rfl)).trans ?_
  refine (shapeCast_apply _ shapeCasts_S64x96x96_S64x24x4x96 _
    (ix3 c (⟨ho.val * 4 + kh.val, by omega⟩ : Fin 96) (⟨wo.val * 4 + kw.val, by omega⟩ : Fin 96)) (by
    rw [Shape.rowMajor_val_three, Shape.rowMajor_val_four]
    show (c.val * 96 + (ho.val * 4 + kh.val)) * 96 + (wo.val * 4 + kw.val)
      = ((c.val * 24 + ho.val) * 4 + kh.val) * 96 + (wo.val * 4 + kw.val)
    omega)).trans ?_
  exact shapeCast_1abc_abc_apply _ _ c _ _

/-- When the block `x` is batch entry `b` of the array `X`, the stored value at (u, c, ho, wo) is the pooled array at
    (b, c, ho, wo): it is below `y` exactly when every entry of the 4 × 4 window is, which characterises the supremum. -/
theorem pay_eq_pool (X : FVec Ideal Cert.Spec.A2 .f32) (x : Vec Ideal S1x64x96x96 .f32) (b : Fin 16)
    (hx : ∀ (c : Fin 64) (h w : Fin 96), x (ix4 (0 : Fin 1) c h w) = X (ix4 b c h w))
    (u : Fin 1) (c : Fin 64) (ho wo : Fin 24) :
    k1_pay1 (F := Ideal) x (ix4 u c ho wo) = Cert.Spec.pool2 X (ix4 b c ho wo) := by
  refine Cert.Spec.eq_pool2 X b c ho wo _ (fun y => ?_)
  rw [pay_apply, fold_max_bot_le]
  simp only [fold_max_bot_le, hx]
  exact forall_comm

/-- The same at an index `j` of the block and an index `i` of the array given by their coordinates: `i` is `j` with
    the unit coordinate replaced by the batch entry `b`. -/
theorem pay_eq_pool_at (X : FVec Ideal Cert.Spec.A2 .f32) (x : Vec Ideal S1x64x96x96 .f32) (b : Fin 16)
    (hx : ∀ (c : Fin 64) (h w : Fin 96), x (ix4 (0 : Fin 1) c h w) = X (ix4 b c h w))
    (j : S1x64x24x24.Idx) (i : Cert.Spec.P2.Idx)
    (h0 : (i 0).val = b.val) (h1 : (i 1).val = (j 1).val) (h2 : (i 2).val = (j 2).val) (h3 : (i 3).val = (j 3).val) :
    k1_pay1 (F := Ideal) x j = Cert.Spec.pool2 X i := by
  obtain ⟨u, c, ho, wo, rfl⟩ : ∃ (u : Fin 1) (c : Fin 64) (ho wo : Fin 24), j = ix4 u c ho wo :=
    ⟨_, _, _, _, eq_ix4 j⟩
  obtain rfl : i = ix4 b c ho wo := funext fun a => Fin.ext (by
    match a with
    | ⟨0, _⟩ => exact h0
    | ⟨1, _⟩ => exact h1
    | ⟨2, _⟩ => exact h2
    | ⟨3, _⟩ => exact h3)
  exact pay_eq_pool X x b hx u c ho wo

/-! ## From blocks to the array -/

theorem hz : (![0, 0, 0, 0] : Fin 4 → Nat) = fun _ => 0 := funext fun a => by fin_cases a <;> rfl

/-- The index maps over the grid: at point `t` both windows' blocks are number `t` along the batch axis and number 0
    along the other three. -/
theorem idx_facts : ∀ t : Fin cfg1.N,
    win1_0.index t (0 : Fin 4) = t.val ∧ win1_0.index t (1 : Fin 4) = 0
    ∧ win1_0.index t (2 : Fin 4) = 0 ∧ win1_0.index t (3 : Fin 4) = 0
    ∧ win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, _)

/-- What point `t` writes back is block `t` of the pooled input array.  The body's one store fills the output block with
    the payload of the input block; the input block is batch entry `t` of the input array and the output block's entry
    `j` sits at `j` with the unit coordinate replaced by `t` (a block's coordinate is its number times its size plus the
    coordinate inside it). -/
theorem flushed_eq (V : (c : Dev nD) → (b : Ref sig .tc) → Buf (Elt Ideal) ((c : Thread nD τ).loc b)) (c : Dev nD)
    (t : Fin cfg1.N) :
    (dat1 (F := Ideal) V c).flushed 1 t
      = ((cfg1.win 1).blk t).view.read (Elt Ideal) (Cert.Spec.pool2 (V c main_arg1)) := by
  show (cfg1.win 1).cut (grid1.coords t) ((dat1 V c).after 1 t) = _
  rw [after1_1]
  unfold out1_1
  rw [View.canon_unit_zero hz]
  simp only [View.ld_unit_zero (S := S1x64x96x96) hz]
  obtain ⟨d0, d1, d2, d3, e0, e1, e2, e3⟩ := idx_facts t
  have ht : t.val < 16 := lt_of_lt_of_eq t.isLt N_1
  funext j
  show k1_pay1 (F := Ideal) (iblk1 V c 0 t) j
    = Cert.Spec.pool2 (V c main_arg1) (((cfg1.win 1).blk t).view.emb j)
  refine pay_eq_pool_at (V c main_arg1) (iblk1 V c 0 t) ⟨t.val, ht⟩ (fun c' h w => ?_) j _ ?_ ?_ ?_ ?_
  · show V c main_arg1 (((cfg1.win 0).blk t).view.emb (ix4 (0 : Fin 1) c' h w))
      = V c main_arg1 (ix4 (⟨t.val, ht⟩ : Fin 16) c' h w)
    refine congrArg _ (funext fun a => Fin.ext ?_)
    match a with
    | ⟨0, _⟩ => show win1_0.index t (0 : Fin 4) * 1 + 1 * 0 = t.val; omega
    | ⟨1, _⟩ => show win1_0.index t (1 : Fin 4) * 64 + 1 * c'.val = c'.val; omega
    | ⟨2, _⟩ => show win1_0.index t (2 : Fin 4) * 96 + 1 * h.val = h.val; omega
    | ⟨3, _⟩ => show win1_0.index t (3 : Fin 4) * 96 + 1 * w.val = w.val; omega
  · show win1_1.index t (0 : Fin 4) * 1 + 1 * (j 0).val = t.val
    have hj : (j 0).val < 1 := (j 0).isLt
    omega
  · show win1_1.index t (1 : Fin 4) * 64 + 1 * (j 1).val = (j 1).val; omega
  · show win1_1.index t (2 : Fin 4) * 24 + 1 * (j 2).val = (j 2).val; omega
  · show win1_1.index t (3 : Fin 4) * 24 + 1 * (j 3).val = (j 3).val; omega

/-- An index of the output array is in point `t`'s block iff each coordinate is in the block's range on its axis. -/
theorem mem_blk (t : Fin cfg1.N) (i : S16x64x24x24.Idx) :
    i ∈ ((cfg1.win 1).blk t).view.set
      ↔ ∀ a : Fin 4, win1_1.index t a * S1x64x24x24.size a ≤ (i a).val
          ∧ (i a).val < win1_1.index t a * S1x64x24x24.size a + S1x64x24x24.size a := by
  show i ∈ ((View.whole main_v1).slice (win1_1.rect t)).set ↔ _
  rw [View.set_slice_whole, Rect.mem_set_unit]
  exact Iff.rfl

/-- The blocks tile the output array: the index (b, c, ho, wo) is in the block of point `b`, which is written back. -/
theorem cover (i : S16x64x24x24.Idx) :
    ∃ t : Fin cfg1.N, (cfg1.win 1).flush t = true ∧ i ∈ ((cfg1.win 1).blk t).view.set := by
  have hi0 : (i 0).val < 16 := (i 0).isLt
  have hi1 : (i 1).val < 64 := (i 1).isLt
  have hi2 : (i 2).val < 24 := (i 2).isLt
  have hi3 : (i 3).val < 24 := (i 3).isLt
  have hN : cfg1.N = 16 := N_1
  obtain ⟨t, ht⟩ : ∃ t : Fin cfg1.N, t.val = (i 0).val := ⟨⟨(i 0).val, by rw [hN]; exact hi0⟩, rfl⟩
  obtain ⟨d0, d1, d2, d3, e0, e1, e2, e3⟩ := idx_facts t
  refine ⟨t, flush1_1 t, ?_⟩
  rw [mem_blk]
  intro a
  match a with
  | ⟨0, _⟩ =>
    show win1_1.index t (0 : Fin 4) * 1 ≤ (i 0).val ∧ (i 0).val < win1_1.index t (0 : Fin 4) * 1 + 1; omega
  | ⟨1, _⟩ =>
    show win1_1.index t (1 : Fin 4) * 64 ≤ (i 1).val ∧ (i 1).val < win1_1.index t (1 : Fin 4) * 64 + 64; omega
  | ⟨2, _⟩ =>
    show win1_1.index t (2 : Fin 4) * 24 ≤ (i 2).val ∧ (i 2).val < win1_1.index t (2 : Fin 4) * 24 + 24; omega
  | ⟨3, _⟩ =>
    show win1_1.index t (3 : Fin 4) * 24 ≤ (i 3).val ∧ (i 3).val < win1_1.index t (3 : Fin 4) * 24 + 24; omega

/-- The second pooling call leaves in its output array the 4 × 4 max-pooling of its input array, whatever the
    contents `V` it is entered with. -/
theorem arr (V : (c : Dev nD) → (b : Ref sig .tc) → Buf (Elt Ideal) ((c : Thread nD τ).loc b)) (c : Dev nD) :
    (dat1 (F := Ideal) V c).arrAt 1 cfg1.N = Cert.Spec.pool2 (V c main_arg1) :=
  (dat1 (F := Ideal) V c).arrAt_eq_of_cover 1 (Cert.Spec.pool2 (V c main_arg1))
    (fun t _ => flushed_eq V c t) cover

end Cert.KernelIdeal.Pool2

end
-- ==== Proof.Pool3.lean ====
/-
  The third pooling call, read as a value.

  The call has one grid point per batch entry.  At point t it is given block t of its input array, of shape
  [1, 32, 192, 192], and leaves in block t of its output array, of shape [1, 32, 24, 24], a value computed in two
  stages: rows are taken in groups of 8 and the maximum over each group is formed (from -∞), then columns are taken in
  groups of 8 and the maximum over each group is formed (from -∞).  So the output entry (c, ho, wo) is the maximum over the
  column offset kw of the maximum over the row offset kh of the input entry (c, ho·8 + kh, wo·8 + kw): a fold of
  folds of `max` from the least extended real, which has the universal property of the supremum of the 8 × 8 window.
  The blocks tile the output array (the point covering batch entry b is b), so the array ends as the pooled input.
-/
import proofs.«104571_j88167088652743_1_alg».proof.Proof.Gen.KernelIdeal.Frame
import proofs.«104571_j88167088652743_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.Finset.Fold

set_option maxRecDepth 16384

noncomputable section

namespace Cert.KernelIdeal.Pool3

open Idealize.ShloMosaic Idealize.ShloMosaic.TcCoe Idealize.ShloMosaic.ValueIdx Idealize.SL.Sem
open Cert.KernelIdeal Cert.KernelIdeal.Gen

/-! ## Folds of `max` from -∞ -/

/-- The word both reductions start from is -∞, the least extended real. -/
theorem negInf_eq_bot : FloatOps.ofBits (F := Ideal) .f32 0xFF800000#32 = (⊥ : EReal) := by
  show Ideal.ofBits .f32 0xFF800000#32 = ⊥
  simp [Ideal.ofBits, Ideal.ieee]

/-- A fold of `max` from -∞ over a whole finite type is below `y` exactly when every term is. -/
theorem fold_max_bot_le {ι : Type} [Fintype ι] (f : ι → EReal) (y : EReal) :
    Finset.univ.fold max (FloatOps.ofBits (F := Ideal) .f32 0xFF800000#32) f ≤ y ↔ ∀ k, f k ≤ y := by
  rw [Finset.fold_max_le, negInf_eq_bot]
  simp only [bot_le, true_and, Finset.mem_univ, true_implies]

/-- A maximum-reduction over one axis, at a reduced index `j`: the fold of `max` from the accumulator's value over
    the coordinate `k` of the dropped axis, of the source at `j` with `k` inserted. -/
theorem reduce_max_apply {s t : Shape} {φ : FTy} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Finset.univ : Finset (Fin (s.size a))).fold max (FloatOps.ofBits φ acc) (fun k => src (h.lift j k)) :=
  Ideal.multiReduction_maximumf_single src acc h hφ hacc j

/-! ## The payload at an index -/

/-- The stored value at (u, c, ho, wo): the maximum over the column offset `kw` of the maximum over the row offset
    `kh` of the block's entry (0, c, ho·8 + kh, wo·8 + kw).  Read from the outside in: the unit axis is put back; the
    second reduction runs over the leading axis of the arrangement [8, 32, 24, 24], which is the transposed
    [32, 24, 24, 8], which is [32, 24, 192] with each row of 192 split into 24 groups of 8 (column wo·8 + kw); the first
    reduction runs over the leading axis of [8, 32, 24, 192], the transposed [32, 24, 8, 192], which is
    [32, 192, 192] with the 192 rows split into 24 groups of 8 (row ho·8 + kh); and [32, 192, 192] is the block without its
    unit axis.  Each regrouping keeps the row-major position. -/
theorem pay_apply (x : Vec Ideal S1x32x192x192 .f32) (u : Fin 1) (c : Fin 32) (ho wo : Fin 24) :
    k2_pay1 (F := Ideal) x (ix4 u c ho wo)
      = Finset.univ.fold max (FloatOps.ofBits (F := Ideal) .f32 0xFF800000#32) (fun kw : Fin 8 =>
          Finset.univ.fold max (FloatOps.ofBits (F := Ideal) .f32 0xFF800000#32) (fun kh : Fin 8 =>
            x (ix4 (0 : Fin 1) c (⟨ho.val * 8 + kh.val, by omega⟩ : Fin 192) (⟨wo.val * 8 + kw.val, by omega⟩ : Fin 192)))) := by
  unfold k2_pay1
  refine (shapeCast_abc_1abc_apply _ _ u c ho wo).trans ?_
  refine (reduce_max_apply _ _ _ _ _ (ix3 c ho wo)).trans ?_
  refine Finset.fold_congr (fun (kw : Fin 8) _ => ?_)
  refine (transpose_apply _ _ transposes_S32x24x24x8_p3_0_1_2_S8x32x24x24 _ (ix4 c ho wo kw)
    (fun b => match b with | ⟨0, _⟩ => rfl | ⟨1, _⟩ => rfl | ⟨2, _⟩ => rfl | ⟨3, _⟩ => rfl)).trans ?_
  refine (shapeCast_apply _ shapeCasts_S32x24x192_S32x24x24x8 _ (ix3 c ho (⟨wo.val * 8 + kw.val, by omega⟩ : Fin 192)) (by
    rw [Shape.rowMajor_val_three, Shape.rowMajor_val_four]
    show (c.val * 24 + ho.val) * 192 + (wo.val * 8 + kw.val) = ((c.val * 24 + ho.val) * 24 + wo.val) * 8 + kw.val
    omega)).trans ?_
  refine (reduce_max_apply _ _ _ _ _ (ix3 c ho (⟨wo.val * 8 + kw.val, by omega⟩ : Fin 192))).trans ?_
  refine Finset.fold_congr (fun (kh : Fin 8) _ => ?_)
  refine (transpose_apply _ _ transposes_S32x24x8x192_p2_0_1_3_S8x32x24x192 _ (ix4 c ho kh (⟨wo.val * 8 + kw.val, by omega⟩ : Fin 192))
    (fun b => match b with | ⟨0, _⟩ => rfl | ⟨1, _⟩ => rfl | ⟨2, _⟩ => rfl | ⟨3, _⟩ => rfl)).trans ?_
  refine (shapeCast_apply _ shapeCasts_S32x192x192_S32x24x8x192 _
    (ix3 c (⟨ho.val * 8 + kh.val, by omega⟩ : Fin 192) (⟨wo.val * 8 + kw.val, by omega⟩ : Fin 192)) (by
    rw [Shape.rowMajor_val_three, Shape.rowMajor_val_four]
    show (c.val * 192 + (ho.val * 8 + kh.val)) * 192 + (wo.val * 8 + kw.val)
      = ((c.val * 24 + ho.val) * 8 + kh.val) * 192 + (wo.val * 8 + kw.val)
    omega)).trans ?_
  exact shapeCast_1abc_abc_apply _ _ c _ _

/-- When the block `x` is batch entry `b` of the array `X`, the stored value at (u, c, ho, wo) is the pooled array at
    (b, c, ho, wo): it is below `y` exactly when every entry of the 8 × 8 window is, which characterises the supremum. -/
theorem pay_eq_pool (X : FVec Ideal Cert.Spec.A3 .f32) (x : Vec Ideal S1x32x192x192 .f32) (b : Fin 16)
    (hx : ∀ (c : Fin 32) (h w : Fin 192), x (ix4 (0 : Fin 1) c h w) = X (ix4 b c h w))
    (u : Fin 1) (c : Fin 32) (ho wo : Fin 24) :
    k2_pay1 (F := Ideal) x (ix4 u c ho wo) = Cert.Spec.pool3 X (ix4 b c ho wo) := by
  refine Cert.Spec.eq_pool3 X b c ho wo _ (fun y => ?_)
  rw [pay_apply, fold_max_bot_le]
  simp only [fold_max_bot_le, hx]
  exact forall_comm

/-- The same at an index `j` of the block and an index `i` of the array given by their coordinates: `i` is `j` with
    the unit coordinate replaced by the batch entry `b`. -/
theorem pay_eq_pool_at (X : FVec Ideal Cert.Spec.A3 .f32) (x : Vec Ideal S1x32x192x192 .f32) (b : Fin 16)
    (hx : ∀ (c : Fin 32) (h w : Fin 192), x (ix4 (0 : Fin 1) c h w) = X (ix4 b c h w))
    (j : S1x32x24x24.Idx) (i : Cert.Spec.P3.Idx)
    (h0 : (i 0).val = b.val) (h1 : (i 1).val = (j 1).val) (h2 : (i 2).val = (j 2).val) (h3 : (i 3).val = (j 3).val) :
    k2_pay1 (F := Ideal) x j = Cert.Spec.pool3 X i := by
  obtain ⟨u, c, ho, wo, rfl⟩ : ∃ (u : Fin 1) (c : Fin 32) (ho wo : Fin 24), j = ix4 u c ho wo :=
    ⟨_, _, _, _, eq_ix4 j⟩
  obtain rfl : i = ix4 b c ho wo := funext fun a => Fin.ext (by
    match a with
    | ⟨0, _⟩ => exact h0
    | ⟨1, _⟩ => exact h1
    | ⟨2, _⟩ => exact h2
    | ⟨3, _⟩ => exact h3)
  exact pay_eq_pool X x b hx u c ho wo

/-! ## From blocks to the array -/

theorem hz : (![0, 0, 0, 0] : Fin 4 → Nat) = fun _ => 0 := funext fun a => by fin_cases a <;> rfl

/-- The index maps over the grid: at point `t` both windows' blocks are number `t` along the batch axis and number 0
    along the other three. -/
theorem idx_facts : ∀ t : Fin cfg2.N,
    win2_0.index t (0 : Fin 4) = t.val ∧ win2_0.index t (1 : Fin 4) = 0
    ∧ win2_0.index t (2 : Fin 4) = 0 ∧ win2_0.index t (3 : Fin 4) = 0
    ∧ win2_1.index t (0 : Fin 4) = t.val ∧ win2_1.index t (1 : Fin 4) = 0
    ∧ win2_1.index t (2 : Fin 4) = 0 ∧ win2_1.index t (3 : Fin 4) = 0 :=
  (by decide +kernel : ∀ t : Fin grid2.N, _)

/-- What point `t` writes back is block `t` of the pooled input array.  The body's one store fills the output block with
    the payload of the input block; the input block is batch entry `t` of the input array and the output block's entry
    `j` sits at `j` with the unit coordinate replaced by `t` (a block's coordinate is its number times its size plus the
    coordinate inside it). -/
theorem flushed_eq (V : (c : Dev nD) → (b : Ref sig .tc) → Buf (Elt Ideal) ((c : Thread nD τ).loc b)) (c : Dev nD)
    (t : Fin cfg2.N) :
    (dat2 (F := Ideal) V c).flushed 1 t
      = ((cfg2.win 1).blk t).view.read (Elt Ideal) (Cert.Spec.pool3 (V c main_arg2)) := by
  show (cfg2.win 1).cut (grid2.coords t) ((dat2 V c).after 1 t) = _
  rw [after2_1]
  unfold out2_1
  rw [View.canon_unit_zero hz]
  simp only [View.ld_unit_zero (S := S1x32x192x192) hz]
  obtain ⟨d0, d1, d2, d3, e0, e1, e2, e3⟩ := idx_facts t
  have ht : t.val < 16 := lt_of_lt_of_eq t.isLt N_2
  funext j
  show k2_pay1 (F := Ideal) (iblk2 V c 0 t) j
    = Cert.Spec.pool3 (V c main_arg2) (((cfg2.win 1).blk t).view.emb j)
  refine pay_eq_pool_at (V c main_arg2) (iblk2 V c 0 t) ⟨t.val, ht⟩ (fun c' h w => ?_) j _ ?_ ?_ ?_ ?_
  · show V c main_arg2 (((cfg2.win 0).blk t).view.emb (ix4 (0 : Fin 1) c' h w))
      = V c main_arg2 (ix4 (⟨t.val, ht⟩ : Fin 16) c' h w)
    refine congrArg _ (funext fun a => Fin.ext ?_)
    match a with
    | ⟨0, _⟩ => show win2_0.index t (0 : Fin 4) * 1 + 1 * 0 = t.val; omega
    | ⟨1, _⟩ => show win2_0.index t (1 : Fin 4) * 32 + 1 * c'.val = c'.val; omega
    | ⟨2, _⟩ => show win2_0.index t (2 : Fin 4) * 192 + 1 * h.val = h.val; omega
    | ⟨3, _⟩ => show win2_0.index t (3 : Fin 4) * 192 + 1 * w.val = w.val; omega
  · show win2_1.index t (0 : Fin 4) * 1 + 1 * (j 0).val = t.val
    have hj : (j 0).val < 1 := (j 0).isLt
    omega
  · show win2_1.index t (1 : Fin 4) * 32 + 1 * (j 1).val = (j 1).val; omega
  · show win2_1.index t (2 : Fin 4) * 24 + 1 * (j 2).val = (j 2).val; omega
  · show win2_1.index t (3 : Fin 4) * 24 + 1 * (j 3).val = (j 3).val; omega

/-- An index of the output array is in point `t`'s block iff each coordinate is in the block's range on its axis. -/
theorem mem_blk (t : Fin cfg2.N) (i : S16x32x24x24.Idx) :
    i ∈ ((cfg2.win 1).blk t).view.set
      ↔ ∀ a : Fin 4, win2_1.index t a * S1x32x24x24.size a ≤ (i a).val
          ∧ (i a).val < win2_1.index t a * S1x32x24x24.size a + S1x32x24x24.size a := by
  show i ∈ ((View.whole main_v2).slice (win2_1.rect t)).set ↔ _
  rw [View.set_slice_whole, Rect.mem_set_unit]
  exact Iff.rfl

/-- The blocks tile the output array: the index (b, c, ho, wo) is in the block of point `b`, which is written back. -/
theorem cover (i : S16x32x24x24.Idx) :
    ∃ t : Fin cfg2.N, (cfg2.win 1).flush t = true ∧ i ∈ ((cfg2.win 1).blk t).view.set := by
  have hi0 : (i 0).val < 16 := (i 0).isLt
  have hi1 : (i 1).val < 32 := (i 1).isLt
  have hi2 : (i 2).val < 24 := (i 2).isLt
  have hi3 : (i 3).val < 24 := (i 3).isLt
  have hN : cfg2.N = 16 := N_2
  obtain ⟨t, ht⟩ : ∃ t : Fin cfg2.N, t.val = (i 0).val := ⟨⟨(i 0).val, by rw [hN]; exact hi0⟩, rfl⟩
  obtain ⟨d0, d1, d2, d3, e0, e1, e2, e3⟩ := idx_facts t
  refine ⟨t, flush2_1 t, ?_⟩
  rw [mem_blk]
  intro a
  match a with
  | ⟨0, _⟩ =>
    show win2_1.index t (0 : Fin 4) * 1 ≤ (i 0).val ∧ (i 0).val < win2_1.index t (0 : Fin 4) * 1 + 1; omega
  | ⟨1, _⟩ =>
    show win2_1.index t (1 : Fin 4) * 32 ≤ (i 1).val ∧ (i 1).val < win2_1.index t (1 : Fin 4) * 32 + 32; omega
  | ⟨2, _⟩ =>
    show win2_1.index t (2 : Fin 4) * 24 ≤ (i 2).val ∧ (i 2).val < win2_1.index t (2 : Fin 4) * 24 + 24; omega
  | ⟨3, _⟩ =>
    show win2_1.index t (3 : Fin 4) * 24 ≤ (i 3).val ∧ (i 3).val < win2_1.index t (3 : Fin 4) * 24 + 24; omega

/-- The third pooling call leaves in its output array the 8 × 8 max-pooling of its input array, whatever the
    contents `V` it is entered with. -/
theorem arr (V : (c : Dev nD) → (b : Ref sig .tc) → Buf (Elt Ideal) ((c : Thread nD τ).loc b)) (c : Dev nD) :
    (dat2 (F := Ideal) V c).arrAt 1 cfg2.N = Cert.Spec.pool3 (V c main_arg2) :=
  (dat2 (F := Ideal) V c).arrAt_eq_of_cover 1 (Cert.Spec.pool3 (V c main_arg2))
    (fun t _ => flushed_eq V c t) cover

end Cert.KernelIdeal.Pool3

end
-- ==== Proof.Pool4.lean ====
/-
  The fourth pooling call, read as a value.

  The call has one grid point per batch entry.  At point t it is given block t of its input array, of shape
  [1, 16, 384, 384], and leaves in block t of its output array, of shape [1, 16, 24, 24], a value computed in two
  stages: rows are taken in groups of 16 and the maximum over each group is formed (from -∞), then columns are taken in
  groups of 16 and the maximum over each group is formed (from -∞).  So the output entry (c, ho, wo) is the maximum over the
  column offset kw of the maximum over the row offset kh of the input entry (c, ho·16 + kh, wo·16 + kw): a fold of
  folds of `max` from the least extended real, which has the universal property of the supremum of the 16 × 16 window.
  The blocks tile the output array (the point covering batch entry b is b), so the array ends as the pooled input.
-/
import proofs.«104571_j88167088652743_1_alg».proof.Proof.Gen.KernelIdeal.Frame
import proofs.«104571_j88167088652743_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.Finset.Fold

set_option maxRecDepth 16384

noncomputable section

namespace Cert.KernelIdeal.Pool4

open Idealize.ShloMosaic Idealize.ShloMosaic.TcCoe Idealize.ShloMosaic.ValueIdx Idealize.SL.Sem
open Cert.KernelIdeal Cert.KernelIdeal.Gen

/-! ## Folds of `max` from -∞ -/

/-- The word both reductions start from is -∞, the least extended real. -/
theorem negInf_eq_bot : FloatOps.ofBits (F := Ideal) .f32 0xFF800000#32 = (⊥ : EReal) := by
  show Ideal.ofBits .f32 0xFF800000#32 = ⊥
  simp [Ideal.ofBits, Ideal.ieee]

/-- A fold of `max` from -∞ over a whole finite type is below `y` exactly when every term is. -/
theorem fold_max_bot_le {ι : Type} [Fintype ι] (f : ι → EReal) (y : EReal) :
    Finset.univ.fold max (FloatOps.ofBits (F := Ideal) .f32 0xFF800000#32) f ≤ y ↔ ∀ k, f k ≤ y := by
  rw [Finset.fold_max_le, negInf_eq_bot]
  simp only [bot_le, true_and, Finset.mem_univ, true_implies]

/-- A maximum-reduction over one axis, at a reduced index `j`: the fold of `max` from the accumulator's value over
    the coordinate `k` of the dropped axis, of the source at `j` with `k` inserted. -/
theorem reduce_max_apply {s t : Shape} {φ : FTy} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Finset.univ : Finset (Fin (s.size a))).fold max (FloatOps.ofBits φ acc) (fun k => src (h.lift j k)) :=
  Ideal.multiReduction_maximumf_single src acc h hφ hacc j

/-! ## The payload at an index -/

/-- The stored value at (u, c, ho, wo): the maximum over the column offset `kw` of the maximum over the row offset
    `kh` of the block's entry (0, c, ho·16 + kh, wo·16 + kw).  Read from the outside in: the unit axis is put back; the
    second reduction runs over the leading axis of the arrangement [16, 16, 24, 24], which is the transposed
    [16, 24, 24, 16], which is [16, 24, 384] with each row of 384 split into 24 groups of 16 (column wo·16 + kw); the first
    reduction runs over the leading axis of [16, 16, 24, 384], the transposed [16, 24, 16, 384], which is
    [16, 384, 384] with the 384 rows split into 24 groups of 16 (row ho·16 + kh); and [16, 384, 384] is the block without its
    unit axis.  Each regrouping keeps the row-major position. -/
theorem pay_apply (x : Vec Ideal S1x16x384x384 .f32) (u : Fin 1) (c : Fin 16) (ho wo : Fin 24) :
    k3_pay1 (F := Ideal) x (ix4 u c ho wo)
      = Finset.univ.fold max (FloatOps.ofBits (F := Ideal) .f32 0xFF800000#32) (fun kw : Fin 16 =>
          Finset.univ.fold max (FloatOps.ofBits (F := Ideal) .f32 0xFF800000#32) (fun kh : Fin 16 =>
            x (ix4 (0 : Fin 1) c (⟨ho.val * 16 + kh.val, by omega⟩ : Fin 384) (⟨wo.val * 16 + kw.val, by omega⟩ : Fin 384)))) := by
  unfold k3_pay1
  refine (shapeCast_abc_1abc_apply _ _ u c ho wo).trans ?_
  refine (reduce_max_apply _ _ _ _ _ (ix3 c ho wo)).trans ?_
  refine Finset.fold_congr (fun (kw : Fin 16) _ => ?_)
  refine (transpose_apply _ _ transposes_S16x24x24x16_p3_0_1_2_S16x16x24x24 _ (ix4 c ho wo kw)
    (fun b => match b with | ⟨0, _⟩ => rfl | ⟨1, _⟩ => rfl | ⟨2, _⟩ => rfl | ⟨3, _⟩ => rfl)).trans ?_
  refine (shapeCast_apply _ shapeCasts_S16x24x384_S16x24x24x16 _ (ix3 c ho (⟨wo.val * 16 + kw.val, by omega⟩ : Fin 384)) (by
    rw [Shape.rowMajor_val_three, Shape.rowMajor_val_four]
    show (c.val * 24 + ho.val) * 384 + (wo.val * 16 + kw.val) = ((c.val * 24 + ho.val) * 24 + wo.val) * 16 + kw.val
    omega)).trans ?_
  refine (reduce_max_apply _ _ _ _ _ (ix3 c ho (⟨wo.val * 16 + kw.val, by omega⟩ : Fin 384))).trans ?_
  refine Finset.fold_congr (fun (kh : Fin 16) _ => ?_)
  refine (transpose_apply _ _ transposes_S16x24x16x384_p2_0_1_3_S16x16x24x384 _ (ix4 c ho kh (⟨wo.val * 16 + kw.val, by omega⟩ : Fin 384))
    (fun b => match b with | ⟨0, _⟩ => rfl | ⟨1, _⟩ => rfl | ⟨2, _⟩ => rfl | ⟨3, _⟩ => rfl)).trans ?_
  refine (shapeCast_apply _ shapeCasts_S16x384x384_S16x24x16x384 _
    (ix3 c (⟨ho.val * 16 + kh.val, by omega⟩ : Fin 384) (⟨wo.val * 16 + kw.val, by omega⟩ : Fin 384)) (by
    rw [Shape.rowMajor_val_three, Shape.rowMajor_val_four]
    show (c.val * 384 + (ho.val * 16 + kh.val)) * 384 + (wo.val * 16 + kw.val)
      = ((c.val * 24 + ho.val) * 16 + kh.val) * 384 + (wo.val * 16 + kw.val)
    omega)).trans ?_
  exact shapeCast_1abc_abc_apply _ _ c _ _

/-- When the block `x` is batch entry `b` of the array `X`, the stored value at (u, c, ho, wo) is the pooled array at
    (b, c, ho, wo): it is below `y` exactly when every entry of the 16 × 16 window is, which characterises the supremum. -/
theorem pay_eq_pool (X : FVec Ideal Cert.Spec.A4 .f32) (x : Vec Ideal S1x16x384x384 .f32) (b : Fin 16)
    (hx : ∀ (c : Fin 16) (h w : Fin 384), x (ix4 (0 : Fin 1) c h w) = X (ix4 b c h w))
    (u : Fin 1) (c : Fin 16) (ho wo : Fin 24) :
    k3_pay1 (F := Ideal) x (ix4 u c ho wo) = Cert.Spec.pool4 X (ix4 b c ho wo) := by
  refine Cert.Spec.eq_pool4 X b c ho wo _ (fun y => ?_)
  rw [pay_apply, fold_max_bot_le]
  simp only [fold_max_bot_le, hx]
  exact forall_comm

/-- The same at an index `j` of the block and an index `i` of the array given by their coordinates: `i` is `j` with
    the unit coordinate replaced by the batch entry `b`. -/
theorem pay_eq_pool_at (X : FVec Ideal Cert.Spec.A4 .f32) (x : Vec Ideal S1x16x384x384 .f32) (b : Fin 16)
    (hx : ∀ (c : Fin 16) (h w : Fin 384), x (ix4 (0 : Fin 1) c h w) = X (ix4 b c h w))
    (j : S1x16x24x24.Idx) (i : Cert.Spec.P4.Idx)
    (h0 : (i 0).val = b.val) (h1 : (i 1).val = (j 1).val) (h2 : (i 2).val = (j 2).val) (h3 : (i 3).val = (j 3).val) :
    k3_pay1 (F := Ideal) x j = Cert.Spec.pool4 X i := by
  obtain ⟨u, c, ho, wo, rfl⟩ : ∃ (u : Fin 1) (c : Fin 16) (ho wo : Fin 24), j = ix4 u c ho wo :=
    ⟨_, _, _, _, eq_ix4 j⟩
  obtain rfl : i = ix4 b c ho wo := funext fun a => Fin.ext (by
    match a with
    | ⟨0, _⟩ => exact h0
    | ⟨1, _⟩ => exact h1
    | ⟨2, _⟩ => exact h2
    | ⟨3, _⟩ => exact h3)
  exact pay_eq_pool X x b hx u c ho wo

/-! ## From blocks to the array -/

theorem hz : (![0, 0, 0, 0] : Fin 4 → Nat) = fun _ => 0 := funext fun a => by fin_cases a <;> rfl

/-- The index maps over the grid: at point `t` both windows' blocks are number `t` along the batch axis and number 0
    along the other three. -/
theorem idx_facts : ∀ t : Fin cfg3.N,
    win3_0.index t (0 : Fin 4) = t.val ∧ win3_0.index t (1 : Fin 4) = 0
    ∧ win3_0.index t (2 : Fin 4) = 0 ∧ win3_0.index t (3 : Fin 4) = 0
    ∧ win3_1.index t (0 : Fin 4) = t.val ∧ win3_1.index t (1 : Fin 4) = 0
    ∧ win3_1.index t (2 : Fin 4) = 0 ∧ win3_1.index t (3 : Fin 4) = 0 :=
  (by decide +kernel : ∀ t : Fin grid3.N, _)

/-- What point `t` writes back is block `t` of the pooled input array.  The body's one store fills the output block with
    the payload of the input block; the input block is batch entry `t` of the input array and the output block's entry
    `j` sits at `j` with the unit coordinate replaced by `t` (a block's coordinate is its number times its size plus the
    coordinate inside it). -/
theorem flushed_eq (V : (c : Dev nD) → (b : Ref sig .tc) → Buf (Elt Ideal) ((c : Thread nD τ).loc b)) (c : Dev nD)
    (t : Fin cfg3.N) :
    (dat3 (F := Ideal) V c).flushed 1 t
      = ((cfg3.win 1).blk t).view.read (Elt Ideal) (Cert.Spec.pool4 (V c main_arg3)) := by
  show (cfg3.win 1).cut (grid3.coords t) ((dat3 V c).after 1 t) = _
  rw [after3_1]
  unfold out3_1
  rw [View.canon_unit_zero hz]
  simp only [View.ld_unit_zero (S := S1x16x384x384) hz]
  obtain ⟨d0, d1, d2, d3, e0, e1, e2, e3⟩ := idx_facts t
  have ht : t.val < 16 := lt_of_lt_of_eq t.isLt N_3
  funext j
  show k3_pay1 (F := Ideal) (iblk3 V c 0 t) j
    = Cert.Spec.pool4 (V c main_arg3) (((cfg3.win 1).blk t).view.emb j)
  refine pay_eq_pool_at (V c main_arg3) (iblk3 V c 0 t) ⟨t.val, ht⟩ (fun c' h w => ?_) j _ ?_ ?_ ?_ ?_
  · show V c main_arg3 (((cfg3.win 0).blk t).view.emb (ix4 (0 : Fin 1) c' h w))
      = V c main_arg3 (ix4 (⟨t.val, ht⟩ : Fin 16) c' h w)
    refine congrArg _ (funext fun a => Fin.ext ?_)
    match a with
    | ⟨0, _⟩ => show win3_0.index t (0 : Fin 4) * 1 + 1 * 0 = t.val; omega
    | ⟨1, _⟩ => show win3_0.index t (1 : Fin 4) * 16 + 1 * c'.val = c'.val; omega
    | ⟨2, _⟩ => show win3_0.index t (2 : Fin 4) * 384 + 1 * h.val = h.val; omega
    | ⟨3, _⟩ => show win3_0.index t (3 : Fin 4) * 384 + 1 * w.val = w.val; omega
  · show win3_1.index t (0 : Fin 4) * 1 + 1 * (j 0).val = t.val
    have hj : (j 0).val < 1 := (j 0).isLt
    omega
  · show win3_1.index t (1 : Fin 4) * 16 + 1 * (j 1).val = (j 1).val; omega
  · show win3_1.index t (2 : Fin 4) * 24 + 1 * (j 2).val = (j 2).val; omega
  · show win3_1.index t (3 : Fin 4) * 24 + 1 * (j 3).val = (j 3).val; omega

/-- An index of the output array is in point `t`'s block iff each coordinate is in the block's range on its axis. -/
theorem mem_blk (t : Fin cfg3.N) (i : S16x16x24x24.Idx) :
    i ∈ ((cfg3.win 1).blk t).view.set
      ↔ ∀ a : Fin 4, win3_1.index t a * S1x16x24x24.size a ≤ (i a).val
          ∧ (i a).val < win3_1.index t a * S1x16x24x24.size a + S1x16x24x24.size a := by
  show i ∈ ((View.whole main_v3).slice (win3_1.rect t)).set ↔ _
  rw [View.set_slice_whole, Rect.mem_set_unit]
  exact Iff.rfl

/-- The blocks tile the output array: the index (b, c, ho, wo) is in the block of point `b`, which is written back. -/
theorem cover (i : S16x16x24x24.Idx) :
    ∃ t : Fin cfg3.N, (cfg3.win 1).flush t = true ∧ i ∈ ((cfg3.win 1).blk t).view.set := by
  have hi0 : (i 0).val < 16 := (i 0).isLt
  have hi1 : (i 1).val < 16 := (i 1).isLt
  have hi2 : (i 2).val < 24 := (i 2).isLt
  have hi3 : (i 3).val < 24 := (i 3).isLt
  have hN : cfg3.N = 16 := N_3
  obtain ⟨t, ht⟩ : ∃ t : Fin cfg3.N, t.val = (i 0).val := ⟨⟨(i 0).val, by rw [hN]; exact hi0⟩, rfl⟩
  obtain ⟨d0, d1, d2, d3, e0, e1, e2, e3⟩ := idx_facts t
  refine ⟨t, flush3_1 t, ?_⟩
  rw [mem_blk]
  intro a
  match a with
  | ⟨0, _⟩ =>
    show win3_1.index t (0 : Fin 4) * 1 ≤ (i 0).val ∧ (i 0).val < win3_1.index t (0 : Fin 4) * 1 + 1; omega
  | ⟨1, _⟩ =>
    show win3_1.index t (1 : Fin 4) * 16 ≤ (i 1).val ∧ (i 1).val < win3_1.index t (1 : Fin 4) * 16 + 16; omega
  | ⟨2, _⟩ =>
    show win3_1.index t (2 : Fin 4) * 24 ≤ (i 2).val ∧ (i 2).val < win3_1.index t (2 : Fin 4) * 24 + 24; omega
  | ⟨3, _⟩ =>
    show win3_1.index t (3 : Fin 4) * 24 ≤ (i 3).val ∧ (i 3).val < win3_1.index t (3 : Fin 4) * 24 + 24; omega

/-- The fourth pooling call leaves in its output array the 16 × 16 max-pooling of its input array, whatever the
    contents `V` it is entered with. -/
theorem arr (V : (c : Dev nD) → (b : Ref sig .tc) → Buf (Elt Ideal) ((c : Thread nD τ).loc b)) (c : Dev nD) :
    (dat3 (F := Ideal) V c).arrAt 1 cfg3.N = Cert.Spec.pool4 (V c main_arg3) :=
  (dat3 (F := Ideal) V c).arrAt_eq_of_cover 1 (Cert.Spec.pool4 (V c main_arg3))
    (fun t _ => flushed_eq V c t) cover

end Cert.KernelIdeal.Pool4

end
-- ==== Proof.Combine.lean ====
/-
  The last call, read as a value.

  The call has one grid point per batch entry.  At point t it is given block t of each of the four pooled arrays, of shapes
  [1, C, 24, 24] with C = 128, 64, 32, 16, and of the fifth input, of shape [1, 256, 24, 24]; it repeats each pooled block
  along the channel axis up to 256 channels (2, 4, 8 and 16 copies one after the other, so that channel c' reads channel
  c' mod C), adds the four to the fifth input's block from the left, takes the maximum with zero, and leaves the result in
  block t of its output array.  The blocks tile the output array (the point covering batch entry b is b), so the array ends
  as the specification's `combine` of the five arrays the call is entered with.
-/
import proofs.«104571_j88167088652743_1_alg».proof.Proof.Gen.KernelIdeal.Frame
import proofs.«104571_j88167088652743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine

open Idealize.ShloMosaic Idealize.ShloMosaic.TcCoe Idealize.ShloMosaic.ValueIdx Idealize.SL.Sem
open Cert.KernelIdeal Cert.KernelIdeal.Gen

/-- A concatenation along the leading axis of `N` copies of one `[C, 24, 24]` piece reads, at `(c, h, w)`, the piece at
    `(c mod C, h, w)`. -/
theorem cat_apply {α : Type} (C N : Nat) (hC : 0 < C) (x : (⟨3, ![C, 24, 24]⟩ : Shape).Idx → α)
    (hcat : Shape.Concatenates ((List.replicate N (⟨⟨3, ![C, 24, 24]⟩, x⟩ : (s : Shape) × (s.Idx → α))).map (·.1)) S256x24x24 0)
    (c : Fin 256) (h w : Fin 24) :
    concatenate S256x24x24 0 (List.replicate N (⟨⟨3, ![C, 24, 24]⟩, x⟩ : (s : Shape) × (s.Idx → α))) hcat (ix3 c h w)
      = x (ix3 (⟨c.val % C, Nat.mod_lt _ hC⟩ : Fin C) h w) :=
  concatenate_replicate_apply (t := S256x24x24) (s₁ := ⟨3, ![C, 24, 24]⟩) (0 : Fin 3) N x hcat rfl (ix3 c h w) (ix3 (⟨c.val % C, Nat.mod_lt _ hC⟩ : Fin C) h w) rfl
    (fun b hb => by
      match b with
      | ⟨0, _⟩ => exact absurd rfl hb
      | ⟨1, _⟩ => rfl
      | ⟨2, _⟩ => rfl)

/-- The body's payload at an index: the [1, 256, 24, 24] block plus the four narrower blocks, each read at the channel
    modulo its own number of channels, added in the body's order, then the maximum with zero. -/
theorem pay_apply (v0 : Vec Ideal S1x256x24x24 .f32) (v2 : Vec Ideal S1x128x24x24 .f32) (v6 : Vec Ideal S1x64x24x24 .f32)
    (v10 : Vec Ideal S1x32x24x24 .f32) (v14 : Vec Ideal S1x16x24x24 .f32) (u : Fin 1) (c : Fin 256) (h w : Fin 24) :
    k4_pay1 (F := Ideal) v0 v2 v6 v10 v14 (ix4 u c h w)
      = max (v0 (ix4 (0 : Fin 1) c h w)
            + v2 (ix4 (0 : Fin 1) (⟨c.val % 128, Nat.mod_lt _ (by decide)⟩ : Fin 128) h w)
            + v6 (ix4 (0 : Fin 1) (⟨c.val % 64, Nat.mod_lt _ (by decide)⟩ : Fin 64) h w)
            + v10 (ix4 (0 : Fin 1) (⟨c.val % 32, Nat.mod_lt _ (by decide)⟩ : Fin 32) h w)
            + v14 (ix4 (0 : Fin 1) (⟨c.val % 16, Nat.mod_lt _ (by decide)⟩ : Fin 16) h w))
          (FloatOps.ofBits (F := Ideal) .f32 0x00000000#32) := by
  unfold k4_pay1
  refine (shapeCast_abc_1abc_apply _ _ u c h w).trans ?_
  rw [maximumf_apply, addf_apply, addf_apply, addf_apply, addf_apply, broadcast_apply]
  refine congrArg₂ max ?_ rfl
  refine congrArg₂ (· + ·) (congrArg₂ (· + ·) (congrArg₂ (· + ·) (congrArg₂ (· + ·) ?_ ?_) ?_) ?_) ?_
  · exact shapeCast_1abc_abc_apply v0 _ c h w
  · exact (cat_apply 128 2 (by decide) _ _ c h w).trans (shapeCast_1abc_abc_apply v2 _ _ h w)
  · exact (cat_apply 64 4 (by decide) _ _ c h w).trans (shapeCast_1abc_abc_apply v6 _ _ h w)
  · exact (cat_apply 32 8 (by decide) _ _ c h w).trans (shapeCast_1abc_abc_apply v10 _ _ h w)
  · exact (cat_apply 16 16 (by decide) _ _ c h w).trans (shapeCast_1abc_abc_apply v14 _ _ h w)

/-- The zero offsets of a whole-buffer access, however spelt. -/
theorem hz : (![0, 0, 0, 0] : Fin 4 → Nat) = fun _ => 0 := funext fun a => by fin_cases a <;> rfl

/-- A point of the grid as the batch entry it is: the grid is the sixteen batch entries. -/
abbrev bOf (t : Fin cfg4.N) : Fin 16 := ⟨t.val, lt_of_lt_of_eq t.isLt N_4⟩

/-- Every window's index map sends point `t` to block `(t, 0, 0, 0)`: decided over the grid. -/
theorem idx0 : ∀ t : Fin cfg4.N, win4_0.index t (0 : Fin 4) = t.val ∧ win4_0.index t (1 : Fin 4) = 0
    ∧ win4_0.index t (2 : Fin 4) = 0 ∧ win4_0.index t (3 : Fin 4) = 0 :=
  (by decide +kernel : ∀ t : Fin grid4.N, _)
theorem idx1 : ∀ t : Fin cfg4.N, win4_1.index t (0 : Fin 4) = t.val ∧ win4_1.index t (1 : Fin 4) = 0
    ∧ win4_1.index t (2 : Fin 4) = 0 ∧ win4_1.index t (3 : Fin 4) = 0 :=
  (by decide +kernel : ∀ t : Fin grid4.N, _)
theorem idx2 : ∀ t : Fin cfg4.N, win4_2.index t (0 : Fin 4) = t.val ∧ win4_2.index t (1 : Fin 4) = 0
    ∧ win4_2.index t (2 : Fin 4) = 0 ∧ win4_2.index t (3 : Fin 4) = 0 :=
  (by decide +kernel : ∀ t : Fin grid4.N, _)
theorem idx3 : ∀ t : Fin cfg4.N, win4_3.index t (0 : Fin 4) = t.val ∧ win4_3.index t (1 : Fin 4) = 0
    ∧ win4_3.index t (2 : Fin 4) = 0 ∧ win4_3.index t (3 : Fin 4) = 0 :=
  (by decide +kernel : ∀ t : Fin grid4.N, _)
theorem idx4 : ∀ t : Fin cfg4.N, win4_4.index t (0 : Fin 4) = t.val ∧ win4_4.index t (1 : Fin 4) = 0
    ∧ win4_4.index t (2 : Fin 4) = 0 ∧ win4_4.index t (3 : Fin 4) = 0 :=
  (by decide +kernel : ∀ t : Fin grid4.N, _)
theorem idx5 : ∀ t : Fin cfg4.N, win4_5.index t (0 : Fin 4) = t.val ∧ win4_5.index t (1 : Fin 4) = 0
    ∧ win4_5.index t (2 : Fin 4) = 0 ∧ win4_5.index t (3 : Fin 4) = 0 :=
  (by decide +kernel : ∀ t : Fin grid4.N, _)

section

variable (V : (c : Dev nD) → (b : Ref sig .tc) → Buf (Elt Ideal) ((c : Thread nD τ).loc b))

/-- Window 0's block at point `t` is batch entry `t` of its array. -/
theorem blk0_apply (c : Dev nD) (t : Fin cfg4.N) (k : Fin 128) (h w : Fin 24) :
    iblk4 (F := Ideal) V c 0 t (ix4 (0 : Fin 1) k h w) = V c main_v0 (ix4 (bOf t) k h w) := by
  obtain ⟨e0, e1, e2, e3⟩ := idx0 t
  show V c main_v0 (((cfg4.win 0).blk t).view.emb (ix4 (0 : Fin 1) k h w)) = _
  refine congrArg _ (funext fun a => Fin.ext ?_)
  match a with
  | ⟨0, _⟩ => show win4_0.index t (0 : Fin 4) * 1 + 1 * 0 = t.val; omega
  | ⟨1, _⟩ => show win4_0.index t (1 : Fin 4) * 128 + 1 * k.val = k.val; omega
  | ⟨2, _⟩ => show win4_0.index t (2 : Fin 4) * 24 + 1 * h.val = h.val; omega
  | ⟨3, _⟩ => show win4_0.index t (3 : Fin 4) * 24 + 1 * w.val = w.val; omega

/-- Window 1's block at point `t` is batch entry `t` of its array. -/
theorem blk1_apply (c : Dev nD) (t : Fin cfg4.N) (k : Fin 64) (h w : Fin 24) :
    iblk4 (F := Ideal) V c 1 t (ix4 (0 : Fin 1) k h w) = V c main_v1 (ix4 (bOf t) k h w) := by
  obtain ⟨e0, e1, e2, e3⟩ := idx1 t
  show V c main_v1 (((cfg4.win 1).blk t).view.emb (ix4 (0 : Fin 1) k h w)) = _
  refine congrArg _ (funext fun a => Fin.ext ?_)
  match a with
  | ⟨0, _⟩ => show win4_1.index t (0 : Fin 4) * 1 + 1 * 0 = t.val; omega
  | ⟨1, _⟩ => show win4_1.index t (1 : Fin 4) * 64 + 1 * k.val = k.val; omega
  | ⟨2, _⟩ => show win4_1.index t (2 : Fin 4) * 24 + 1 * h.val = h.val; omega
  | ⟨3, _⟩ => show win4_1.index t (3 : Fin 4) * 24 + 1 * w.val = w.val; omega

/-- Window 2's block at point `t` is batch entry `t` of its array. -/
theorem blk2_apply (c : Dev nD) (t : Fin cfg4.N) (k : Fin 32) (h w : Fin 24) :
    iblk4 (F := Ideal) V c 2 t (ix4 (0 : Fin 1) k h w) = V c main_v2 (ix4 (bOf t) k h w) := by
  obtain ⟨e0, e1, e2, e3⟩ := idx2 t
  show V c main_v2 (((cfg4.win 2).blk t).view.emb (ix4 (0 : Fin 1) k h w)) = _
  refine congrArg _ (funext fun a => Fin.ext ?_)
  match a with
  | ⟨0, _⟩ => show win4_2.index t (0 : Fin 4) * 1 + 1 * 0 = t.val; omega
  | ⟨1, _⟩ => show win4_2.index t (1 : Fin 4) * 32 + 1 * k.val = k.val; omega
  | ⟨2, _⟩ => show win4_2.index t (2 : Fin 4) * 24 + 1 * h.val = h.val; omega
  | ⟨3, _⟩ => show win4_2.index t (3 : Fin 4) * 24 + 1 * w.val = w.val; omega

/-- Window 3's block at point `t` is batch entry `t` of its array. -/
theorem blk3_apply (c : Dev nD) (t : Fin cfg4.N) (k : Fin 16) (h w : Fin 24) :
    iblk4 (F := Ideal) V c 3 t (ix4 (0 : Fin 1) k h w) = V c main_v3 (ix4 (bOf t) k h w) := by
  obtain ⟨e0, e1, e2, e3⟩ := idx3 t
  show V c main_v3 (((cfg4.win 3).blk t).view.emb (ix4 (0 : Fin 1) k h w)) = _
  refine congrArg _ (funext fun a => Fin.ext ?_)
  match a with
  | ⟨0, _⟩ => show win4_3.index t (0 : Fin 4) * 1 + 1 * 0 = t.val; omega
  | ⟨1, _⟩ => show win4_3.index t (1 : Fin 4) * 16 + 1 * k.val = k.val; omega
  | ⟨2, _⟩ => show win4_3.index t (2 : Fin 4) * 24 + 1 * h.val = h.val; omega
  | ⟨3, _⟩ => show win4_3.index t (3 : Fin 4) * 24 + 1 * w.val = w.val; omega

/-- Window 4's block at point `t` is batch entry `t` of its array. -/
theorem blk4_apply (c : Dev nD) (t : Fin cfg4.N) (k : Fin 256) (h w : Fin 24) :
    iblk4 (F := Ideal) V c 4 t (ix4 (0 : Fin 1) k h w) = V c main_arg4 (ix4 (bOf t) k h w) := by
  obtain ⟨e0, e1, e2, e3⟩ := idx4 t
  show V c main_arg4 (((cfg4.win 4).blk t).view.emb (ix4 (0 : Fin 1) k h w)) = _
  refine congrArg _ (funext fun a => Fin.ext ?_)
  match a with
  | ⟨0, _⟩ => show win4_4.index t (0 : Fin 4) * 1 + 1 * 0 = t.val; omega
  | ⟨1, _⟩ => show win4_4.index t (1 : Fin 4) * 256 + 1 * k.val = k.val; omega
  | ⟨2, _⟩ => show win4_4.index t (2 : Fin 4) * 24 + 1 * h.val = h.val; omega
  | ⟨3, _⟩ => show win4_4.index t (3 : Fin 4) * 24 + 1 * w.val = w.val; omega

/-- The output window's block at point `t` sits at batch entry `t` of the output array. -/
theorem emb5 (t : Fin cfg4.N) (u : Fin 1) (k : Fin 256) (h w : Fin 24) :
    ((cfg4.win 5).blk t).view.emb (ix4 u k h w) = ix4 (bOf t) k h w := by
  obtain ⟨e0, e1, e2, e3⟩ := idx5 t
  refine funext fun a => Fin.ext ?_
  have hu : u.val = 0 := by omega
  match a with
  | ⟨0, _⟩ => show win4_5.index t (0 : Fin 4) * 1 + 1 * u.val = t.val; omega
  | ⟨1, _⟩ => show win4_5.index t (1 : Fin 4) * 256 + 1 * k.val = k.val; omega
  | ⟨2, _⟩ => show win4_5.index t (2 : Fin 4) * 24 + 1 * h.val = h.val; omega
  | ⟨3, _⟩ => show win4_5.index t (3 : Fin 4) * 24 + 1 * w.val = w.val; omega

/-- What the body leaves in the output's buffer, at an index, from the five input buffers. -/
theorem out_apply (x0 : Vec Ideal S1x128x24x24 .f32) (x1 : Vec Ideal S1x64x24x24 .f32) (x2 : Vec Ideal S1x32x24x24 .f32)
    (x3 : Vec Ideal S1x16x24x24 .f32) (x4 : Vec Ideal S1x256x24x24 .f32) (u : Fin 1) (k : Fin 256) (h w : Fin 24) :
    out4_5 (F := Ideal) x0 x1 x2 x3 x4 (ix4 u k h w)
      = max (x4 (ix4 (0 : Fin 1) k h w)
            + x0 (ix4 (0 : Fin 1) (⟨k.val % 128, Nat.mod_lt _ (by decide)⟩ : Fin 128) h w)
            + x1 (ix4 (0 : Fin 1) (⟨k.val % 64, Nat.mod_lt _ (by decide)⟩ : Fin 64) h w)
            + x2 (ix4 (0 : Fin 1) (⟨k.val % 32, Nat.mod_lt _ (by decide)⟩ : Fin 32) h w)
            + x3 (ix4 (0 : Fin 1) (⟨k.val % 16, Nat.mod_lt _ (by decide)⟩ : Fin 16) h w))
          (FloatOps.ofBits (F := Ideal) .f32 0x00000000#32) := by
  unfold out4_5
  rw [View.canon_unit_zero hz]
  simp only [View.ld_unit_zero (S := S1x256x24x24) hz, View.ld_unit_zero (S := S1x128x24x24) hz,
    View.ld_unit_zero (S := S1x64x24x24) hz, View.ld_unit_zero (S := S1x32x24x24) hz, View.ld_unit_zero (S := S1x16x24x24) hz]
  exact pay_apply x4 x0 x1 x2 x3 u k h w

/-- What point `t` writes back is block `t` of the clamped sum of the arrays as the call finds them. -/
theorem flushed_eq (c : Dev nD) (t : Fin cfg4.N) :
    (dat4 (F := Ideal) V c).flushed 5 t
      = ((cfg4.win 5).blk t).view.read (Elt Ideal)
          (Cert.Spec.combine (V c main_v0) (V c main_v1) (V c main_v2) (V c main_v3) (V c main_arg4)) := by
  show (cfg4.win 5).cut (grid4.coords t) ((dat4 V c).after 5 t) = _
  rw [after4_5]
  funext y
  obtain ⟨u, k, h, w, rfl⟩ : ∃ (u : Fin 1) (k : Fin 256) (h w : Fin 24), y = ix4 u k h w := ⟨y 0, y 1, y 2, y 3, eq_ix4 y⟩
  show out4_5 (F := Ideal) (iblk4 V c 0 t) (iblk4 V c 1 t) (iblk4 V c 2 t) (iblk4 V c 3 t) (iblk4 V c 4 t) (ix4 u k h w)
      = Cert.Spec.combine (V c main_v0) (V c main_v1) (V c main_v2) (V c main_v3) (V c main_arg4)
          (((cfg4.win 5).blk t).view.emb (ix4 u k h w))
  rw [emb5 t u k h w]
  refine (out_apply (iblk4 V c 0 t) (iblk4 V c 1 t) (iblk4 V c 2 t) (iblk4 V c 3 t) (iblk4 V c 4 t) u k h w).trans ?_
  rw [blk4_apply V c t k h w, blk0_apply V c t _ h w, blk1_apply V c t _ h w, blk2_apply V c t _ h w,
    blk3_apply V c t _ h w]
  rfl

/-- Every index of the output array is in the block of the point that is its batch entry. -/
theorem cover (i : S16x256x24x24.Idx) :
    ∃ t : Fin cfg4.N, (cfg4.win 5).flush t = true ∧ i ∈ ((cfg4.win 5).blk t).view.set := by
  have h0 : (i 0).val < 16 := (i 0).isLt
  have h1 : (i 1).val < 256 := (i 1).isLt
  have h2 : (i 2).val < 24 := (i 2).isLt
  have h3 : (i 3).val < 24 := (i 3).isLt
  let t : Fin cfg4.N := ⟨(i 0).val, lt_of_lt_of_eq h0 N_4.symm⟩
  obtain ⟨e0, e1, e2, e3⟩ := idx5 t
  refine ⟨t, flush4_5 t, ?_⟩
  show i ∈ ((View.whole main_v4).slice (win4_5.rect t)).set
  rw [View.set_slice_whole, Rect.mem_set_unit]
  intro a
  have ht : t.val = (i 0).val := rfl
  match a with
  | ⟨0, _⟩ => show win4_5.index t (0 : Fin 4) * 1 ≤ (i 0).val ∧ (i 0).val < win4_5.index t (0 : Fin 4) * 1 + 1; omega
  | ⟨1, _⟩ => show win4_5.index t (1 : Fin 4) * 256 ≤ (i 1).val ∧ (i 1).val < win4_5.index t (1 : Fin 4) * 256 + 256; omega
  | ⟨2, _⟩ => show win4_5.index t (2 : Fin 4) * 24 ≤ (i 2).val ∧ (i 2).val < win4_5.index t (2 : Fin 4) * 24 + 24; omega
  | ⟨3, _⟩ => show win4_5.index t (3 : Fin 4) * 24 ≤ (i 3).val ∧ (i 3).val < win4_5.index t (3 : Fin 4) * 24 + 24; omega

end

/-- The last call leaves in its output array the clamped sum of its fifth operand and the four pooled operands
    repeated along the channel axis, whatever the contents `V` it is entered with. -/
theorem arr (V : (c : Dev nD) → (b : Ref sig .tc) → Buf (Elt Ideal) ((c : Thread nD τ).loc b)) (c : Dev nD) :
    (dat4 (F := Ideal) V c).arrAt 5 cfg4.N
      = Cert.Spec.combine (V c main_v0) (V c main_v1) (V c main_v2) (V c main_v3) (V c main_arg4) :=
  (dat4 (F := Ideal) V c).arrAt_eq_of_cover 5 _ (fun t _ => flushed_eq V c t) cover

end Cert.KernelIdeal.Combine

end
-- ==== Proof.KernelValue.lean ====
/-
  The idealized kernel's result array as one function of the five argument arrays.

  The program is five calls in a row.  Each of the first four reads one argument array and writes its pooled array into a
  buffer nothing else writes; the fifth reads those four buffers and the fifth argument.  So the contents the fifth call is
  entered with hold, at each pooled buffer, the pooling of the argument as launched, and the result array it leaves is the
  specification's `result` of the launch memory.
-/
import proofs.«104571_j88167088652743_1_alg».proof.Proof.Gen.KernelIdeal.Frame
import proofs.«104571_j88167088652743_1_alg».proof.Proof.Spec
import proofs.«104571_j88167088652743_1_alg».proof.Proof.Pool1
import proofs.«104571_j88167088652743_1_alg».proof.Proof.Pool2
import proofs.«104571_j88167088652743_1_alg».proof.Proof.Pool3
import proofs.«104571_j88167088652743_1_alg».proof.Proof.Pool4
import proofs.«104571_j88167088652743_1_alg».proof.Proof.Combine

set_option maxRecDepth 16384

noncomputable section

namespace Cert.KernelIdeal.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first pooled buffer, as the fifth call finds it: written by the first call from the first argument as launched,
    and by no later call. -/
theorem v0_at4 (c : Dev nD) :
    W4 m ρ c (Proc.devRef .tc main_v0) = Cert.Spec.pool1 (m ((c : Thread nD τ).loc main_arg0)) :=
  calc W4 m ρ c (Proc.devRef .tc main_v0)
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 1 cfg0.N := W1_arr m ρ c 1
    _ = Cert.Spec.pool1 (V0 m ρ c main_arg0) := Cert.KernelIdeal.Pool1.arr (V0 m ρ) c
    _ = Cert.Spec.pool1 (m ((c : Thread nD τ).loc main_arg0)) := rfl

/-- The second argument, as the second call finds it: as launched. -/
theorem arg1_at1 (c : Dev nD) : W1 m ρ c (Proc.devRef .tc main_arg1) = m ((c : Thread nD τ).loc main_arg1) :=
  W1_of_ne m ρ c main_arg1 (by decide)
/-- The second pooled buffer, as the fifth call finds it. -/
theorem v1_at4 (c : Dev nD) :
    W4 m ρ c (Proc.devRef .tc main_v1) = Cert.Spec.pool2 (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := W3_of_ne m ρ c main_v1 (by decide)
    _ = (dat1 (V1 m ρ) c).arrAt 1 cfg1.N := W2_arr m ρ c 1
    _ = Cert.Spec.pool2 (V1 m ρ c main_arg1) := Cert.KernelIdeal.Pool2.arr (V1 m ρ) c
    _ = Cert.Spec.pool2 (m ((c : Thread nD τ).loc main_arg1)) := congrArg Cert.Spec.pool2 (arg1_at1 m ρ c)

/-- The third argument, as the third call finds it: as launched. -/
theorem arg2_at2 (c : Dev nD) : W2 m ρ c (Proc.devRef .tc main_arg2) = m ((c : Thread nD τ).loc main_arg2) :=
  (W2_of_ne m ρ c main_arg2 (by decide)).trans (W1_of_ne m ρ c main_arg2 (by decide))
/-- The third pooled buffer, as the fifth call finds it. -/
theorem v2_at4 (c : Dev nD) :
    W4 m ρ c (Proc.devRef .tc main_v2) = Cert.Spec.pool3 (m ((c : Thread nD τ).loc main_arg2)) :=
  calc W4 m ρ c (Proc.devRef .tc main_v2)
    _ = W3 m ρ c (Proc.devRef .tc main_v2) := W4_of_ne m ρ c main_v2 (by decide)
    _ = (dat2 (V2 m ρ) c).arrAt 1 cfg2.N := W3_arr m ρ c 1
    _ = Cert.Spec.pool3 (V2 m ρ c main_arg2) := Cert.KernelIdeal.Pool3.arr (V2 m ρ) c
    _ = Cert.Spec.pool3 (m ((c : Thread nD τ).loc main_arg2)) := congrArg Cert.Spec.pool3 (arg2_at2 m ρ c)

/-- The fourth argument, as the fourth call finds it: as launched. -/
theorem arg3_at3 (c : Dev nD) : W3 m ρ c (Proc.devRef .tc main_arg3) = m ((c : Thread nD τ).loc main_arg3) :=
  ((W3_of_ne m ρ c main_arg3 (by decide)).trans (W2_of_ne m ρ c main_arg3 (by decide))).trans
    (W1_of_ne m ρ c main_arg3 (by decide))
/-- The fourth pooled buffer, as the fifth call finds it. -/
theorem v3_at4 (c : Dev nD) :
    W4 m ρ c (Proc.devRef .tc main_v3) = Cert.Spec.pool4 (m ((c : Thread nD τ).loc main_arg3)) :=
  calc W4 m ρ c (Proc.devRef .tc main_v3)
    _ = (dat3 (V3 m ρ) c).arrAt 1 cfg3.N := W4_arr m ρ c 1
    _ = Cert.Spec.pool4 (V3 m ρ c main_arg3) := Cert.KernelIdeal.Pool4.arr (V3 m ρ) c
    _ = Cert.Spec.pool4 (m ((c : Thread nD τ).loc main_arg3)) := congrArg Cert.Spec.pool4 (arg3_at3 m ρ c)

/-- The fifth argument, as the fifth call finds it: as launched. -/
theorem arg4_at4 (c : Dev nD) : W4 m ρ c (Proc.devRef .tc main_arg4) = m ((c : Thread nD τ).loc main_arg4) :=
  (((W4_of_ne m ρ c main_arg4 (by decide)).trans (W3_of_ne m ρ c main_arg4 (by decide))).trans
    (W2_of_ne m ρ c main_arg4 (by decide))).trans (W1_of_ne m ρ c main_arg4 (by decide))

/-- The result array after the run is the specification of the launch memory's five argument arrays. -/
theorem result_at5 (c : Dev nD) :
    W5 m ρ c (Proc.devRef .tc main_v4)
      = Cert.Spec.result (m ((c : Thread nD τ).loc main_arg0)) (m ((c : Thread nD τ).loc main_arg1))
          (m ((c : Thread nD τ).loc main_arg2)) (m ((c : Thread nD τ).loc main_arg3)) (m ((c : Thread nD τ).loc main_arg4)) := by
  rw [W5_arr m ρ c 5, Cert.KernelIdeal.Combine.arr (V4 m ρ) c]
  show Cert.Spec.combine (W4 m ρ c (Proc.devRef .tc main_v0)) (W4 m ρ c (Proc.devRef .tc main_v1))
      (W4 m ρ c (Proc.devRef .tc main_v2)) (W4 m ρ c (Proc.devRef .tc main_v3)) (W4 m ρ c (Proc.devRef .tc main_arg4)) = _
  rw [v0_at4, v1_at4, v2_at4, v3_at4, arg4_at4]
  rfl

end Cert.KernelIdeal.KernelValue

end
-- ==== Proof.LibReduceWindowMax.lean ====
/-
  A windowed reduction with a maximum body, read by its universal property.

  `Host.reduceWindow f window strides lo hi x init` is, at a result index `j`, the left fold of `f` from the initial
  value over the positions of the window in row-major order, each position reading the operand at
  `j a · stride a + w a - lo a` on axis `a` (or the initial value where that falls in the padding).  For `f = max` over a
  linear order and no padding the fold is the supremum of the initial value and the window's entries, and a supremum is
  known by what lies above it: `reduceWindow_max_le_iff` says the result is below `y` exactly when the initial value
  and every entry of the window are.  The shapes, the window and the strides are arbitrary; the only hypotheses are
  that both paddings vanish.  The window's positions are quantified as multi-indices `w` of the shape whose sizes are
  the window's, and the operand's index as any `q` with the stated coordinates, so that a use at literal shapes needs
  no bound proof inside the statement.
-/
import Idealize.ShloMosaic.PureOps.Contract

namespace Idealize.ShloMosaic.ReduceWindowMax

/-- A left fold of `max` over a list lies below `y` exactly when its starting value and every term do. -/
theorem foldl_max_le_iff {α ι : Type} [LinearOrder α] (g : ι → α) (l : List ι) (a y : α) :
    l.foldl (fun r n => max r (g n)) a ≤ y ↔ a ≤ y ∧ ∀ n ∈ l, g n ≤ y := by
  induction l generalizing a with
  | nil => simp
  | cons n l ih =>
    rw [List.foldl_cons, ih, max_le_iff, and_assoc]
    simp only [List.mem_cons, forall_eq_or_imp]

/-- With no padding, every position of every window lies inside the operand: the last window starts at
    `(size - window) / stride · stride ≤ size - window`. -/
theorem window_inside {s t : Shape} {window strides lo hi : Fin s.rank → Nat}
    (h : s.ReduceWindows window strides lo hi t) (hlo : ∀ a, lo a = 0) (hhi : ∀ a, hi a = 0)
    (j : t.Idx) (w : (⟨s.rank, window⟩ : Shape).Idx) (a : Fin s.rank) :
    (j (a.cast h.1.symm)).val * strides a + (w a).val < s.size a := by
  obtain ⟨hs, hw, ht⟩ := h.2 a
  have hj := lt_of_lt_of_eq (j (a.cast h.1.symm)).isLt ht
  have hwa : (w a).val < window a := (w a).isLt
  simp only [hlo a, hhi a, Nat.zero_add, Nat.add_zero] at hj hw
  have h1 : (j (a.cast h.1.symm)).val ≤ (s.size a - window a) / strides a := by omega
  have h2 : (j (a.cast h.1.symm)).val * strides a ≤ (s.size a - window a) / strides a * strides a :=
    Nat.mul_le_mul_right _ h1
  have h3 : (s.size a - window a) / strides a * strides a ≤ s.size a - window a := Nat.div_mul_le_self _ _
  omega

/-- `stablehlo.reduce_window` with a maximum body and no padding, read by its universal property: the result at `j`
    lies below `y` exactly when the initial value does and so does every operand entry `x q` whose coordinates are
    `q a = j a · stride a + w a` for a position `w` of the window. -/
theorem reduceWindow_max_le_iff {α : Type} [LinearOrder α] {s t u : Shape} (window strides lo hi : Fin s.rank → Nat)
    (x : s.Idx → α) (init : u.Idx → α) (h : s.ReduceWindows window strides lo hi t) (hu : 0 < u.numel)
    (hlo : ∀ a, lo a = 0) (hhi : ∀ a, hi a = 0) (j : t.Idx) (y : α) :
    Host.reduceWindow max window strides lo hi x init h hu j ≤ y ↔
      init (Shape.Idx.first hu) ≤ y ∧
        ∀ (w : (⟨s.rank, window⟩ : Shape).Idx) (q : s.Idx),
          (∀ a, (q a).val = (j (a.cast h.1.symm)).val * strides a + (w a).val) → x q ≤ y := by
  unfold Host.reduceWindow
  dsimp only
  rw [foldl_max_le_iff]
  refine and_congr_right fun _ => ⟨fun H w q hq => ?_, fun H n _ => ?_⟩
  · -- the position `w` is the `n`-th of the window for some `n`; the fold's term there is `x q`
    obtain ⟨n, rfl⟩ := (⟨s.rank, window⟩ : Shape).rowMajor.symm.surjective w
    have hn := H n (List.mem_finRange _)
    have hin : ∀ a, lo a ≤ (j (a.cast h.1.symm)).val * strides a + (((⟨s.rank, window⟩ : Shape).rowMajor.symm n) a).val ∧
        (j (a.cast h.1.symm)).val * strides a + (((⟨s.rank, window⟩ : Shape).rowMajor.symm n) a).val - lo a < s.size a :=
      fun a => by
        have := window_inside h hlo hhi j ((⟨s.rank, window⟩ : Shape).rowMajor.symm n) a
        rw [hlo a]; omega
    rw [dif_pos hin] at hn
    refine le_of_eq_of_le (congrArg x (funext fun a => Fin.ext ?_)) hn
    show (q a).val = _ - lo a
    rw [hq a, hlo a]; rfl
  · -- the `n`-th term of the fold reads the operand inside it, at the position `rowMajor.symm n` of the window
    have hin : ∀ a, lo a ≤ (j (a.cast h.1.symm)).val * strides a + (((⟨s.rank, window⟩ : Shape).rowMajor.symm n) a).val ∧
        (j (a.cast h.1.symm)).val * strides a + (((⟨s.rank, window⟩ : Shape).rowMajor.symm n) a).val - lo a < s.size a :=
      fun a => by
        have := window_inside h hlo hhi j ((⟨s.rank, window⟩ : Shape).rowMajor.symm n) a
        rw [hlo a]; omega
    rw [dif_pos hin]
    exact H ((⟨s.rank, window⟩ : Shape).rowMajor.symm n) _ (fun a => by show _ - lo a = _; rw [hlo a]; rfl)

end Idealize.ShloMosaic.ReduceWindowMax
-- ==== Proof.RefPool.lean ====
/-
  The reference's four windowed maxima are the specification's poolings.

  Each stage is a `stablehlo.reduce_window` with a maximum body, window and strides (1, 1, k, k), no padding, and the
  initial value -∞ (the constant word 0xFF800000, broadcast).  By the universal property of such a reduction
  (`reduceWindow_max_le_iff`: the result is below y exactly when the initial value and every entry of the window are)
  and since -∞ is below everything, the result at (b, c, ho, wo) is below y exactly when every entry
  (b, c, ho·k + kh, wo·k + kw), kh, kw < k, is: the property that characterises the supremum of the window,
  `Cert.Spec.eq_pool1` … `eq_pool4`.  The window's positions are never enumerated: kh and kw stay variables.
-/
import proofs.«104571_j88167088652743_1_alg».proof.Proof.Gen.ReferenceIdeal.Run
import proofs.«104571_j88167088652743_1_alg».proof.Proof.Gen.ReferenceIdeal.Read
import proofs.«104571_j88167088652743_1_alg».proof.Proof.Spec
import Idealize.ShloMosaic.Lib.Pipeline.Value
import Idealize.ShloMosaic.Lib.ValueIdx
import Idealize.ShloMosaic.PureOps.Ideal.Laws
import proofs.«104571_j88167088652743_1_alg».proof.Proof.LibReduceWindowMax

set_option maxRecDepth 16384

noncomputable section

namespace Cert.ReferenceIdeal.RefPool

open Idealize.ShloMosaic Idealize.ShloMosaic.TcCoe Idealize.ShloMosaic.ValueIdx Idealize.SL.Sem
open Cert.ReferenceIdeal Cert.ReferenceIdeal.Read
open Idealize.ShloMosaic.ReduceWindowMax

/-- The initial value of the first windowed maximum is -∞, the least extended real. -/
theorem init1_bot (i : S_.Idx) : val_main_v0 (F := Ideal) i = (⊥ : EReal) := by
  rw [val_main_v0_apply, val_main_cst_apply]
  show Ideal.ofBits .f32 0xFF800000#32 = ⊥
  simp [Ideal.ofBits, Ideal.ieee]

/-- The initial value of the second windowed maximum is -∞, the least extended real. -/
theorem init2_bot (i : S_.Idx) : val_main_v5 (F := Ideal) i = (⊥ : EReal) := by
  rw [val_main_v5_apply, val_main_cst_0_apply]
  show Ideal.ofBits .f32 0xFF800000#32 = ⊥
  simp [Ideal.ofBits, Ideal.ieee]

/-- The initial value of the third windowed maximum is -∞, the least extended real. -/
theorem init3_bot (i : S_.Idx) : val_main_v10 (F := Ideal) i = (⊥ : EReal) := by
  rw [val_main_v10_apply, val_main_cst_1_apply]
  show Ideal.ofBits .f32 0xFF800000#32 = ⊥
  simp [Ideal.ofBits, Ideal.ieee]

/-- The initial value of the fourth windowed maximum is -∞, the least extended real. -/
theorem init4_bot (i : S_.Idx) : val_main_v15 (F := Ideal) i = (⊥ : EReal) := by
  rw [val_main_v15_apply, val_main_cst_2_apply]
  show Ideal.ofBits .f32 0xFF800000#32 = ⊥
  simp [Ideal.ofBits, Ideal.ieee]

/-- The positions of a 1 × 1 × k × k window with strides 1, 1, k, k at the result index (b, c, ho, wo) of a rank-four
    array are the entries (b, c, ho·k + kh, wo·k + kw) with kh, kw < k: the two unit axes of the window contribute
    nothing, and the other two are the offsets. -/
theorem window_entries {n0 n1 n2 n3 m2 m3 k : Nat} (x : (⟨4, ![n0, n1, n2, n3]⟩ : Shape).Idx → EReal)
    (b : Fin n0) (c : Fin n1) (ho : Fin m2) (wo : Fin m3) (y : EReal)
    (h2 : ∀ kh : Fin k, ho.val * k + kh.val < n2) (h3 : ∀ kw : Fin k, wo.val * k + kw.val < n3)
    (hr : (4 : Nat) = 4) :
    (∀ (w : (⟨4, ![1, 1, k, k]⟩ : Shape).Idx) (q : (⟨4, ![n0, n1, n2, n3]⟩ : Shape).Idx),
        (∀ a : Fin 4, (q a).val =
          ((ix4 b c ho wo : (⟨4, ![n0, n1, m2, m3]⟩ : Shape).Idx) (a.cast hr)).val * (![1, 1, k, k] : Fin 4 → Nat) a + (w a).val) →
          x q ≤ y) ↔
      ∀ kh kw : Fin k, x (ix4 b c ⟨ho.val * k + kh.val, h2 kh⟩ ⟨wo.val * k + kw.val, h3 kw⟩) ≤ y := by
  constructor
  · intro H kh kw
    refine H (ix4 (0 : Fin 1) (0 : Fin 1) kh kw) _ (fun a => ?_)
    match a with
    | ⟨0, _⟩ => show b.val = b.val * 1 + 0; omega
    | ⟨1, _⟩ => show c.val = c.val * 1 + 0; omega
    | ⟨2, _⟩ => rfl
    | ⟨3, _⟩ => rfl
  · intro H w q hq
    have e : q = ix4 b c ⟨ho.val * k + (w 2).val, h2 (w 2)⟩ ⟨wo.val * k + (w 3).val, h3 (w 3)⟩ := by
      funext a
      refine Fin.ext ?_
      match a with
      | ⟨0, _⟩ =>
        have h0 : (w 0).val < 1 := (w 0).isLt
        have := hq 0
        show (q 0).val = b.val
        have e0 : (q 0).val = b.val * 1 + (w 0).val := this
        omega
      | ⟨1, _⟩ =>
        have h0 : (w 1).val < 1 := (w 1).isLt
        have e0 : (q 1).val = c.val * 1 + (w 1).val := hq 1
        show (q 1).val = c.val
        omega
      | ⟨2, _⟩ => exact hq 2
      | ⟨3, _⟩ => exact hq 3
    rw [e]
    exact H (w 2) (w 3)

/-- The reference's first windowed maximum is the 2 × 2 pooling of the specification. -/
theorem pool1_eq (x0 : FVec Ideal S16x128x48x48 .f32) : val_main_v1 (F := Ideal) x0 = Cert.Spec.pool1 x0 := by
  funext j
  obtain ⟨b, c, ho, wo, rfl⟩ : ∃ (b : Fin 16) (c : Fin 128) (ho wo : Fin 24), j = ix4 b c ho wo :=
    ⟨j 0, j 1, j 2, j 3, eq_ix4 j⟩
  refine Cert.Spec.eq_pool1 x0 b c ho wo _ (fun y => ?_)
  unfold val_main_v1
  show Host.reduceWindow max ![1, 1, 2, 2] ![1, 1, 2, 2] ![0, 0, 0, 0] ![0, 0, 0, 0] x0 (val_main_v0 (F := Ideal)) _ _
    (ix4 b c ho wo) ≤ y ↔ _
  rw [reduceWindow_max_le_iff _ _ _ _ _ _ _ _ (fun a => by match a with | ⟨0, _⟩ => rfl | ⟨1, _⟩ => rfl | ⟨2, _⟩ => rfl | ⟨3, _⟩ => rfl)
    (fun a => by match a with | ⟨0, _⟩ => rfl | ⟨1, _⟩ => rfl | ⟨2, _⟩ => rfl | ⟨3, _⟩ => rfl), init1_bot]
  exact (and_iff_right bot_le).trans
    (window_entries x0 b c ho wo y (fun kh => by omega) (fun kw => by omega) rfl)

/-- The second is the 4 × 4 pooling. -/
theorem pool2_eq (x1 : FVec Ideal S16x64x96x96 .f32) : val_main_v6 (F := Ideal) x1 = Cert.Spec.pool2 x1 := by
  funext j
  obtain ⟨b, c, ho, wo, rfl⟩ : ∃ (b : Fin 16) (c : Fin 64) (ho wo : Fin 24), j = ix4 b c ho wo :=
    ⟨j 0, j 1, j 2, j 3, eq_ix4 j⟩
  refine Cert.Spec.eq_pool2 x1 b c ho wo _ (fun y => ?_)
  unfold val_main_v6
  show Host.reduceWindow max ![1, 1, 4, 4] ![1, 1, 4, 4] ![0, 0, 0, 0] ![0, 0, 0, 0] x1 (val_main_v5 (F := Ideal)) _ _
    (ix4 b c ho wo) ≤ y ↔ _
  rw [reduceWindow_max_le_iff _ _ _ _ _ _ _ _ (fun a => by match a with | ⟨0, _⟩ => rfl | ⟨1, _⟩ => rfl | ⟨2, _⟩ => rfl | ⟨3, _⟩ => rfl)
    (fun a => by match a with | ⟨0, _⟩ => rfl | ⟨1, _⟩ => rfl | ⟨2, _⟩ => rfl | ⟨3, _⟩ => rfl), init2_bot]
  exact (and_iff_right bot_le).trans
    (window_entries x1 b c ho wo y (fun kh => by omega) (fun kw => by omega) rfl)

/-- The third is the 8 × 8 pooling. -/
theorem pool3_eq (x2 : FVec Ideal S16x32x192x192 .f32) : val_main_v11 (F := Ideal) x2 = Cert.Spec.pool3 x2 := by
  funext j
  obtain ⟨b, c, ho, wo, rfl⟩ : ∃ (b : Fin 16) (c : Fin 32) (ho wo : Fin 24), j = ix4 b c ho wo :=
    ⟨j 0, j 1, j 2, j 3, eq_ix4 j⟩
  refine Cert.Spec.eq_pool3 x2 b c ho wo _ (fun y => ?_)
  unfold val_main_v11
  show Host.reduceWindow max ![1, 1, 8, 8] ![1, 1, 8, 8] ![0, 0, 0, 0] ![0, 0, 0, 0] x2 (val_main_v10 (F := Ideal)) _ _
    (ix4 b c ho wo) ≤ y ↔ _
  rw [reduceWindow_max_le_iff _ _ _ _ _ _ _ _ (fun a => by match a with | ⟨0, _⟩ => rfl | ⟨1, _⟩ => rfl | ⟨2, _⟩ => rfl | ⟨3, _⟩ => rfl)
    (fun a => by match a with | ⟨0, _⟩ => rfl | ⟨1, _⟩ => rfl | ⟨2, _⟩ => rfl | ⟨3, _⟩ => rfl), init3_bot]
  exact (and_iff_right bot_le).trans
    (window_entries x2 b c ho wo y (fun kh => by omega) (fun kw => by omega) rfl)

/-- The fourth is the 16 × 16 pooling. -/
theorem pool4_eq (x3 : FVec Ideal S16x16x384x384 .f32) : val_main_v16 (F := Ideal) x3 = Cert.Spec.pool4 x3 := by
  funext j
  obtain ⟨b, c, ho, wo, rfl⟩ : ∃ (b : Fin 16) (c : Fin 16) (ho wo : Fin 24), j = ix4 b c ho wo :=
    ⟨j 0, j 1, j 2, j 3, eq_ix4 j⟩
  refine Cert.Spec.eq_pool4 x3 b c ho wo _ (fun y => ?_)
  unfold val_main_v16
  show Host.reduceWindow max ![1, 1, 16, 16] ![1, 1, 16, 16] ![0, 0, 0, 0] ![0, 0, 0, 0] x3 (val_main_v15 (F := Ideal)) _ _
    (ix4 b c ho wo) ≤ y ↔ _
  rw [reduceWindow_max_le_iff _ _ _ _ _ _ _ _ (fun a => by match a with | ⟨0, _⟩ => rfl | ⟨1, _⟩ => rfl | ⟨2, _⟩ => rfl | ⟨3, _⟩ => rfl)
    (fun a => by match a with | ⟨0, _⟩ => rfl | ⟨1, _⟩ => rfl | ⟨2, _⟩ => rfl | ⟨3, _⟩ => rfl), init4_bot]
  exact (and_iff_right bot_le).trans
    (window_entries x3 b c ho wo y (fun kh => by omega) (fun kw => by omega) rfl)

end Cert.ReferenceIdeal.RefPool

end
-- ==== Proof.LibRank8.lean ====
/-
  RANK-8 INDICES BY COORDINATES. `ix8` builds a rank-8 index from its eight coordinates, `eq_ix8` says every rank-8
  index is of that form, and `Shape.rowMajor_val_eight` writes its row-major position as one sum of products, a form
  linear arithmetic can use once the extents are literals. Rank 8 is what a repetition of a rank-4 array along its axes
  passes through: each axis of extent n is split into a unit axis and the axis itself, [n0,n1,n2,n3] becoming
  [1,n0,1,n1,1,n2,1,n3], the unit axes are broadcast to the numbers of copies, and adjacent pairs are merged again.
  A file opens the namespace: `open Idealize.ShloMosaic.ValueIdx`.
-/
import Idealize.ShloMosaic.Lib.ValueIdx

namespace Idealize.ShloMosaic

/-- Rank 8: the row-major position of an index as one sum of products (the leading axis is the slowest). -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-8 index from its eight coordinates. -/
abbrev ix8 {n0 n1 n2 n3 n4 n5 n6 n7 : Nat} (a0 : Fin n0) (a1 : Fin n1) (a2 : Fin n2) (a3 : Fin n3) (a4 : Fin n4)
    (a5 : Fin n5) (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

end ValueIdx

end Idealize.ShloMosaic
-- ==== Proof.RefTile.lean ====
/-
  The reference's repetition of each pooled array along the channel axis, read at an index.

  A pooled array of shape [16, C, 24, 24] is viewed as [1, 16, 1, C, 1, 24, 1, 24], its third axis is broadcast to r copies
  (r · C = 256), and the result is viewed as [16, 256, 24, 24].  Both views keep the row-major position, so the entry
  (b, c', h, w) of the result passes through (0, b, c' / C, c' mod C, 0, h, 0, w), which the broadcast reads at
  (0, b, 0, c' mod C, 0, h, 0, w), the position of (b, c' mod C, h, w) in the pooled array: channel c' reads channel c' mod C.
-/
import proofs.«104571_j88167088652743_1_alg».proof.Proof.Gen.ReferenceIdeal.Run
import proofs.«104571_j88167088652743_1_alg».proof.Proof.Gen.ReferenceIdeal.Read
import proofs.«104571_j88167088652743_1_alg».proof.Proof.Spec
import Idealize.ShloMosaic.Lib.Pipeline.Value
import Idealize.ShloMosaic.Lib.ValueIdx
import proofs.«104571_j88167088652743_1_alg».proof.Proof.LibRank8
import Idealize.ShloMosaic.PureOps.Ideal.Laws

set_option maxRecDepth 16384

noncomputable section

namespace Cert.ReferenceIdeal.RefTile

open Idealize.ShloMosaic Idealize.ShloMosaic.TcCoe Idealize.ShloMosaic.ValueIdx Idealize.SL.Sem
open Cert.ReferenceIdeal Cert.ReferenceIdeal.Read

/-- Copy 1 at a point: in [16,256,24,24] the entry (b, c, h, w) has the row-major position of (0, b, c / 128, c % 128, 0, h, 0, w)
    in [1,16,2,128,1,24,1,24]; the broadcast of the third axis forgets the copy number c / 128; and (0, b, 0, c % 128, 0, h, 0, w)
    in [1,16,1,128,1,24,1,24] has the row-major position of (b, c % 128, h, w) in [16,128,24,24]. -/
theorem tile1_pt (x0 : FVec Ideal S16x128x48x48 .f32) (b : Fin 16) (c : Fin 256) (h w : Fin 24) :
    val_main_v4 (F := Ideal) x0 (ix4 b c h w)
      = val_main_v1 (F := Ideal) x0 (ix4 b (⟨c.val % 128, Nat.mod_lt _ (by decide)⟩ : Fin 128) h w) := by
  have hb : b.val < 16 := b.isLt
  have hc : c.val < 256 := c.isLt
  have hh : h.val < 24 := h.isLt
  have hw : w.val < 24 := w.isLt
  have hq : c.val / 128 < 2 := by omega
  have hr : c.val % 128 < 128 := Nat.mod_lt _ (by decide)
  have hdm : 128 * (c.val / 128) + c.val % 128 = c.val := Nat.div_add_mod _ _
  unfold val_main_v4
  -- the outer reshape merges the copy axis (extent 2) with the channel axis (extent 128): c = 128 * (c / 128) + c % 128
  refine (shapeCast_apply _ _ (ix4 b c h w)
    (ix8 (⟨0, Nat.one_pos⟩ : Fin 1) b (⟨c.val / 128, hq⟩ : Fin 2) (⟨c.val % 128, hr⟩ : Fin 128) (⟨0, Nat.one_pos⟩ : Fin 1) h
      (⟨0, Nat.one_pos⟩ : Fin 1) w)
    (by rw [Shape.rowMajor_val_eight, Shape.rowMajor_val_four]
        show ((((((0 * 16 + b.val) * 2 + c.val / 128) * 128 + c.val % 128) * 1 + 0) * 24 + h.val) * 1 + 0) * 24 + w.val
          = ((b.val * 256 + c.val) * 24 + h.val) * 24 + w.val
        omega)).trans ?_
  -- the broadcast reads the unit third axis at 0 whatever the copy number
  rw [val_main_v3_apply]
  unfold val_main_v2
  -- the inner reshape only inserts unit axes
  refine shapeCast_apply _ _ _ (ix4 b (⟨c.val % 128, hr⟩ : Fin 128) h w)
    (by rw [Shape.rowMajor_val_four, Shape.rowMajor_val_eight]
        show ((b.val * 128 + c.val % 128) * 24 + h.val) * 24 + w.val
          = ((((((0 * 16 + b.val) * 1 + 0) * 128 + c.val % 128) * 1 + 0) * 24 + h.val) * 1 + 0) * 24 + w.val
        omega)

/-- Copy 2 at a point: in [16,256,24,24] the entry (b, c, h, w) has the row-major position of (0, b, c / 64, c % 64, 0, h, 0, w)
    in [1,16,4,64,1,24,1,24]; the broadcast of the third axis forgets the copy number c / 64; and (0, b, 0, c % 64, 0, h, 0, w)
    in [1,16,1,64,1,24,1,24] has the row-major position of (b, c % 64, h, w) in [16,64,24,24]. -/
theorem tile2_pt (x1 : FVec Ideal S16x64x96x96 .f32) (b : Fin 16) (c : Fin 256) (h w : Fin 24) :
    val_main_v9 (F := Ideal) x1 (ix4 b c h w)
      = val_main_v6 (F := Ideal) x1 (ix4 b (⟨c.val % 64, Nat.mod_lt _ (by decide)⟩ : Fin 64) h w) := by
  have hb : b.val < 16 := b.isLt
  have hc : c.val < 256 := c.isLt
  have hh : h.val < 24 := h.isLt
  have hw : w.val < 24 := w.isLt
  have hq : c.val / 64 < 4 := by omega
  have hr : c.val % 64 < 64 := Nat.mod_lt _ (by decide)
  have hdm : 64 * (c.val / 64) + c.val % 64 = c.val := Nat.div_add_mod _ _
  unfold val_main_v9
  -- the outer reshape merges the copy axis (extent 4) with the channel axis (extent 64): c = 64 * (c / 64) + c % 64
  refine (shapeCast_apply _ _ (ix4 b c h w)
    (ix8 (⟨0, Nat.one_pos⟩ : Fin 1) b (⟨c.val / 64, hq⟩ : Fin 4) (⟨c.val % 64, hr⟩ : Fin 64) (⟨0, Nat.one_pos⟩ : Fin 1) h
      (⟨0, Nat.one_pos⟩ : Fin 1) w)
    (by rw [Shape.rowMajor_val_eight, Shape.rowMajor_val_four]
        show ((((((0 * 16 + b.val) * 4 + c.val / 64) * 64 + c.val % 64) * 1 + 0) * 24 + h.val) * 1 + 0) * 24 + w.val
          = ((b.val * 256 + c.val) * 24 + h.val) * 24 + w.val
        omega)).trans ?_
  -- the broadcast reads the unit third axis at 0 whatever the copy number
  rw [val_main_v8_apply]
  unfold val_main_v7
  -- the inner reshape only inserts unit axes
  refine shapeCast_apply _ _ _ (ix4 b (⟨c.val % 64, hr⟩ : Fin 64) h w)
    (by rw [Shape.rowMajor_val_four, Shape.rowMajor_val_eight]
        show ((b.val * 64 + c.val % 64) * 24 + h.val) * 24 + w.val
          = ((((((0 * 16 + b.val) * 1 + 0) * 64 + c.val % 64) * 1 + 0) * 24 + h.val) * 1 + 0) * 24 + w.val
        omega)

/-- Copy 3 at a point: in [16,256,24,24] the entry (b, c, h, w) has the row-major position of (0, b, c / 32, c % 32, 0, h, 0, w)
    in [1,16,8,32,1,24,1,24]; the broadcast of the third axis forgets the copy number c / 32; and (0, b, 0, c % 32, 0, h, 0, w)
    in [1,16,1,32,1,24,1,24] has the row-major position of (b, c % 32, h, w) in [16,32,24,24]. -/
theorem tile3_pt (x2 : FVec Ideal S16x32x192x192 .f32) (b : Fin 16) (c : Fin 256) (h w : Fin 24) :
    val_main_v14 (F := Ideal) x2 (ix4 b c h w)
      = val_main_v11 (F := Ideal) x2 (ix4 b (⟨c.val % 32, Nat.mod_lt _ (by decide)⟩ : Fin 32) h w) := by
  have hb : b.val < 16 := b.isLt
  have hc : c.val < 256 := c.isLt
  have hh : h.val < 24 := h.isLt
  have hw : w.val < 24 := w.isLt
  have hq : c.val / 32 < 8 := by omega
  have hr : c.val % 32 < 32 := Nat.mod_lt _ (by decide)
  have hdm : 32 * (c.val / 32) + c.val % 32 = c.val := Nat.div_add_mod _ _
  unfold val_main_v14
  -- the outer reshape merges the copy axis (extent 8) with the channel axis (extent 32): c = 32 * (c / 32) + c % 32
  refine (shapeCast_apply _ _ (ix4 b c h w)
    (ix8 (⟨0, Nat.one_pos⟩ : Fin 1) b (⟨c.val / 32, hq⟩ : Fin 8) (⟨c.val % 32, hr⟩ : Fin 32) (⟨0, Nat.one_pos⟩ : Fin 1) h
      (⟨0, Nat.one_pos⟩ : Fin 1) w)
    (by rw [Shape.rowMajor_val_eight, Shape.rowMajor_val_four]
        show ((((((0 * 16 + b.val) * 8 + c.val / 32) * 32 + c.val % 32) * 1 + 0) * 24 + h.val) * 1 + 0) * 24 + w.val
          = ((b.val * 256 + c.val) * 24 + h.val) * 24 + w.val
        omega)).trans ?_
  -- the broadcast reads the unit third axis at 0 whatever the copy number
  rw [val_main_v13_apply]
  unfold val_main_v12
  -- the inner reshape only inserts unit axes
  refine shapeCast_apply _ _ _ (ix4 b (⟨c.val % 32, hr⟩ : Fin 32) h w)
    (by rw [Shape.rowMajor_val_four, Shape.rowMajor_val_eight]
        show ((b.val * 32 + c.val % 32) * 24 + h.val) * 24 + w.val
          = ((((((0 * 16 + b.val) * 1 + 0) * 32 + c.val % 32) * 1 + 0) * 24 + h.val) * 1 + 0) * 24 + w.val
        omega)

/-- Copy 4 at a point: in [16,256,24,24] the entry (b, c, h, w) has the row-major position of (0, b, c / 16, c % 16, 0, h, 0, w)
    in [1,16,16,16,1,24,1,24]; the broadcast of the third axis forgets the copy number c / 16; and (0, b, 0, c % 16, 0, h, 0, w)
    in [1,16,1,16,1,24,1,24] has the row-major position of (b, c % 16, h, w) in [16,16,24,24]. -/
theorem tile4_pt (x3 : FVec Ideal S16x16x384x384 .f32) (b : Fin 16) (c : Fin 256) (h w : Fin 24) :
    val_main_v19 (F := Ideal) x3 (ix4 b c h w)
      = val_main_v16 (F := Ideal) x3 (ix4 b (⟨c.val % 16, Nat.mod_lt _ (by decide)⟩ : Fin 16) h w) := by
  have hb : b.val < 16 := b.isLt
  have hc : c.val < 256 := c.isLt
  have hh : h.val < 24 := h.isLt
  have hw : w.val < 24 := w.isLt
  have hq : c.val / 16 < 16 := by omega
  have hr : c.val % 16 < 16 := Nat.mod_lt _ (by decide)
  have hdm : 16 * (c.val / 16) + c.val % 16 = c.val := Nat.div_add_mod _ _
  unfold val_main_v19
  -- the outer reshape merges the copy axis (extent 16) with the channel axis (extent 16): c = 16 * (c / 16) + c % 16
  refine (shapeCast_apply _ _ (ix4 b c h w)
    (ix8 (⟨0, Nat.one_pos⟩ : Fin 1) b (⟨c.val / 16, hq⟩ : Fin 16) (⟨c.val % 16, hr⟩ : Fin 16) (⟨0, Nat.one_pos⟩ : Fin 1) h
      (⟨0, Nat.one_pos⟩ : Fin 1) w)
    (by rw [Shape.rowMajor_val_eight, Shape.rowMajor_val_four]
        show ((((((0 * 16 + b.val) * 16 + c.val / 16) * 16 + c.val % 16) * 1 + 0) * 24 + h.val) * 1 + 0) * 24 + w.val
          = ((b.val * 256 + c.val) * 24 + h.val) * 24 + w.val
        omega)).trans ?_
  -- the broadcast reads the unit third axis at 0 whatever the copy number
  rw [val_main_v18_apply]
  unfold val_main_v17
  -- the inner reshape only inserts unit axes
  refine shapeCast_apply _ _ _ (ix4 b (⟨c.val % 16, hr⟩ : Fin 16) h w)
    (by rw [Shape.rowMajor_val_four, Shape.rowMajor_val_eight]
        show ((b.val * 16 + c.val % 16) * 24 + h.val) * 24 + w.val
          = ((((((0 * 16 + b.val) * 1 + 0) * 16 + c.val % 16) * 1 + 0) * 24 + h.val) * 1 + 0) * 24 + w.val
        omega)

/-- The first pooled array repeated twice along the channel axis: channel c' reads channel c' mod 128. -/
theorem tile1 (x0 : FVec Ideal S16x128x48x48 .f32) (i : S16x256x24x24.Idx) :
    val_main_v4 (F := Ideal) x0 i
      = val_main_v1 (F := Ideal) x0 (ix4 (i 0) (⟨(i 1).val % 128, Nat.mod_lt _ (by decide)⟩ : Fin 128) (i 2) (i 3)) :=
  (congrArg (val_main_v4 (F := Ideal) x0) (eq_ix4 i)).trans (tile1_pt x0 (i 0) (i 1) (i 2) (i 3))
/-- The second repeated four times: channel c' reads channel c' mod 64. -/
theorem tile2 (x1 : FVec Ideal S16x64x96x96 .f32) (i : S16x256x24x24.Idx) :
    val_main_v9 (F := Ideal) x1 i
      = val_main_v6 (F := Ideal) x1 (ix4 (i 0) (⟨(i 1).val % 64, Nat.mod_lt _ (by decide)⟩ : Fin 64) (i 2) (i 3)) :=
  (congrArg (val_main_v9 (F := Ideal) x1) (eq_ix4 i)).trans (tile2_pt x1 (i 0) (i 1) (i 2) (i 3))
/-- The third repeated eight times: channel c' reads channel c' mod 32. -/
theorem tile3 (x2 : FVec Ideal S16x32x192x192 .f32) (i : S16x256x24x24.Idx) :
    val_main_v14 (F := Ideal) x2 i
      = val_main_v11 (F := Ideal) x2 (ix4 (i 0) (⟨(i 1).val % 32, Nat.mod_lt _ (by decide)⟩ : Fin 32) (i 2) (i 3)) :=
  (congrArg (val_main_v14 (F := Ideal) x2) (eq_ix4 i)).trans (tile3_pt x2 (i 0) (i 1) (i 2) (i 3))
/-- The fourth repeated sixteen times: channel c' reads channel c' mod 16. -/
theorem tile4 (x3 : FVec Ideal S16x16x384x384 .f32) (i : S16x256x24x24.Idx) :
    val_main_v19 (F := Ideal) x3 i
      = val_main_v16 (F := Ideal) x3 (ix4 (i 0) (⟨(i 1).val % 16, Nat.mod_lt _ (by decide)⟩ : Fin 16) (i 2) (i 3)) :=
  (congrArg (val_main_v19 (F := Ideal) x3) (eq_ix4 i)).trans (tile4_pt x3 (i 0) (i 1) (i 2) (i 3))

end Cert.ReferenceIdeal.RefTile

end
-- ==== Proof.RefValue.lean ====
/-
  The reference's result as the specification.

  The reference pools each of the first four arguments with a windowed maximum, repeats each pooled array along the channel
  axis, adds the four in the order ((x₁ + x₂) + x₃) + x₄, then the fifth argument, and takes the maximum with zero.  The
  specification adds in the order (((ff + p₁) + p₂) + p₃) + p₄: addition of extended reals is commutative and associative,
  so the two sums are equal at every index, infinite entries included.
-/
import proofs.«104571_j88167088652743_1_alg».proof.Proof.Gen.ReferenceIdeal.Run
import proofs.«104571_j88167088652743_1_alg».proof.Proof.Gen.ReferenceIdeal.Read
import proofs.«104571_j88167088652743_1_alg».proof.Proof.Spec
import proofs.«104571_j88167088652743_1_alg».proof.Proof.RefPool
import proofs.«104571_j88167088652743_1_alg».proof.Proof.RefTile
import Idealize.ShloMosaic.Lib.ValueIdx

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Read

/-- The zero the reference clamps at is the constant's value. -/
theorem zero_apply (i : S16x256x24x24.Idx) :
    val_main_call0_v0 (F := Ideal) i = FloatOps.ofBits (F := Ideal) .f32 0x00000000#32 :=
  (val_main_call0_v0_apply (F := Ideal) i).trans (val_main_call0_cst_apply (F := Ideal) _)

/-- Five extended reals added from the left in one order and in the rotated order. -/
theorem sum_eq (a b c d e : EReal) : (((a + b) + c) + d) + e = (((e + a) + b) + c) + d := by
  simp only [add_comm, add_left_comm, add_assoc]

/-- The reference's last stage, as a function of the five arguments, is the specification. -/
theorem result_eq (x0 : FVec Ideal S16x128x48x48 .f32) (x1 : FVec Ideal S16x64x96x96 .f32) (x2 : FVec Ideal S16x32x192x192 .f32)
    (x3 : FVec Ideal S16x16x384x384 .f32) (x4 : FVec Ideal S16x256x24x24 .f32) :
    val_main_v24 (F := Ideal) x0 x1 x2 x3 x4 = Cert.Spec.result x0 x1 x2 x3 x4 := by
  funext i
  refine (val_main_v24_apply (F := Ideal) x0 x1 x2 x3 x4 i).trans ?_
  rw [zero_apply]
  rw [val_main_v23_apply, val_main_v22_apply, val_main_v21_apply, val_main_v20_apply]
  rw [Cert.ReferenceIdeal.RefTile.tile1, Cert.ReferenceIdeal.RefTile.tile2, Cert.ReferenceIdeal.RefTile.tile3,
    Cert.ReferenceIdeal.RefTile.tile4]
  rw [Cert.ReferenceIdeal.RefPool.pool1_eq, Cert.ReferenceIdeal.RefPool.pool2_eq,
    Cert.ReferenceIdeal.RefPool.pool3_eq, Cert.ReferenceIdeal.RefPool.pool4_eq]
  unfold Cert.Spec.result Cert.Spec.combine
  exact congrArg (fun s : EReal => max s (FloatOps.ofBits (F := Ideal) .f32 0x00000000#32)) (sum_eq _ _ _ _ _)

end Cert.ReferenceIdeal.RefValue

end
-- ==== Proof.lean ====
/-
  Five pooling-and-add calls against a pool, tile and add reference, over the extended reals.

  The kernel max-pools four inputs over non-overlapping k × k windows (k = 2, 4, 8, 16), one call each, by two successive
  folds of `max` from -∞ (rows of the window, then columns); a fifth call repeats each pooled array along the channel
  axis up to 256 channels, adds them to the fifth input and clamps the sum at zero.  The reference pools with one windowed
  fold of `max` from -∞, repeats by reshape, broadcast and reshape, and adds in another order.  Both results are the
  function `Cert.Spec.result` of the five inputs: a fold of `max` from -∞ over a finite family is the family's
  supremum however the family is enumerated or nested, repeating along the channel axis reads channel c' mod C either way,
  and addition of extended reals is commutative and associative, so no finiteness of the inputs is used.

  The frames of the two kernel programs are the generated ones; the reference's frame is its generated run with the
  result dropped; the idealization rewrote nothing, so its claim is trivial.
-/
import proofs.«104571_j88167088652743_1_alg».proof.Defs
import proofs.«104571_j88167088652743_1_alg».proof.Proof.Gen.Kernel
import proofs.«104571_j88167088652743_1_alg».proof.Proof.Gen.Kernel.Skeleton
import proofs.«104571_j88167088652743_1_alg».proof.Proof.Gen.Kernel.Launch
import proofs.«104571_j88167088652743_1_alg».proof.Proof.Gen.Kernel.Points
import proofs.«104571_j88167088652743_1_alg».proof.Proof.Gen.Kernel.Frame
import proofs.«104571_j88167088652743_1_alg».proof.Proof.Gen.KernelIdeal
import proofs.«104571_j88167088652743_1_alg».proof.Proof.Gen.KernelIdeal.Skeleton
import proofs.«104571_j88167088652743_1_alg».proof.Proof.Gen.KernelIdeal.Launch
import proofs.«104571_j88167088652743_1_alg».proof.Proof.Gen.KernelIdeal.Points
import proofs.«104571_j88167088652743_1_alg».proof.Proof.Gen.KernelIdeal.Frame
import proofs.«104571_j88167088652743_1_alg».proof.Proof.Gen.ReferenceIdeal
import proofs.«104571_j88167088652743_1_alg».proof.Proof.Gen.ReferenceIdeal.Run
import proofs.«104571_j88167088652743_1_alg».proof.Proof.Gen.ReferenceIdeal.Read
import proofs.«104571_j88167088652743_1_alg».proof.Proof.Gen.Pre_finite_inputs
import proofs.«104571_j88167088652743_1_alg».proof.Proof.RunValue
import proofs.«104571_j88167088652743_1_alg».proof.Proof.KernelValue
import proofs.«104571_j88167088652743_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both runs end with the result array at `Cert.Spec.result` of the kernel's launch arguments: the kernel's by its run
    with the result named and the five calls read one after the other, the reference's by its run read stage by stage,
    the arguments' agreement rewritten. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.KernelValue.result_at5 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
